-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v36_0)) (v1 : (c : Dev Cert.KernelIdeal.nD) → Buf (Elt Ideal) ((c.tc : Thread Cert.KernelIdeal.nD Cert.KernelIdeal.τ).loc Cert.KernelIdeal.main_v36_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36_0) = v0 c
          ∧ r.2.mem ((c.tc : Thread Cert.KernelIdeal.nD Cert.KernelIdeal.τ).loc Cert.KernelIdeal.main_v36_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S_ : Shape := ⟨0, ![]⟩

class Facts : Prop where
  bcast_S_S1x65536x32 : S_.BroadcastsInDim S1x65536x32 (![] : Fin 0 → Fin S1x65536x32.rank)
  reducesTo_S1x65536x32_S_d0_1_2 : S1x65536x32.ReducesTo [0, 1, 2] S_
  h_S_ : 0 < S_.numel
  bcast_S_S1x65536x32x8 : S_.BroadcastsInDim S1x65536x32x8 (![] : Fin 0 → Fin S1x65536x32x8.rank)
  reducesTo_S1x65536x32x8_S_d0_1_2_3 : S1x65536x32x8.ReducesTo [0, 1, 2, 3] S_
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_v13 : IVec S_ 1) (main_v16 : IVec S256x256x256 1) : IVec S_ 1 :=
  let main_c_5 : IVec S_ 1 := constantI S_ 1 1#1
  let main_v17 : IVec S_ 1 := (fun x v => Host.reduce IntOp.andi x v reducesTo_S256x256x256_S_d0_1_2 h_S_) main_v16 main_c_5
  let main_v18 : IVec S_ 1 := andi main_v13 main_v17
  main_v18

def fn {F : FTy → Type} [FloatOps F] (main_arg0 : FVec F S1x65536x32 .f32) (main_arg1 : IVec S1x65536x32x8x3 32) (main_arg2 : FVec F S1x65536x32x8 .f32) (main_arg3 : FVec F S256x256x256 .f32) (main_arg4 : FVec F S256x256x256 .f32) : IVec S_ 1 :=
  let main_v0 : FVec F S1x65536x32 .f32 := Host.absf main_arg0
  let main_cst : FVec F S_ .f32 := constant S_ .f32 0x7F800000#32
  let main_v1 : FVec F S1x65536x32 .f32 := broadcastInDim S1x65536x32 ![] bcast_S_S1x65536x32 main_cst
  let main_v2 : IVec S1x65536x32 1 := cmpf .olt main_v0 main_v1
  let main_c : IVec S_ 1 := constantI S_ 1 1#1
  let main_v3 : IVec S_ 1 := (fun x v => Host.reduce IntOp.andi x v reducesTo_S1x65536x32_S_d0_1_2 h_S_) main_v2 main_c
  let main_v4 : FVec F S1x65536x32x8 .f32 := Host.absf main_arg2
  let main_cst_0 : FVec F S_ .f32 := constant S_ .f32 0x7F800000#32
  let main_v5 : FVec F S1x65536x32x8 .f32 := broadcastInDim S1x65536x32x8 ![] bcast_S_S1x65536x32x8 main_cst_0
  let main_v6 : IVec S1x65536x32x8 1 := cmpf .olt main_v4 main_v5
  let main_c_1 : IVec S_ 1 := constantI S_ 1 1#1
  let main_v7 : IVec S_ 1 := (fun x v => Host.reduce IntOp.andi x v reducesTo_S1x65536x32x8_S_d0_1_2_3 h_S_) main_v6 main_c_1
  let main_v8 : IVec S_ 1 := andi main_v3 main_v7
  let main_v9 : FVec F S256x256x256 .f32 := Host.absf main_arg3
  let main_cst_2 : FVec F S_ .f32 := constant S_ .f32 0x7F800000#32
  let main_v10 : FVec F S256x256x256 .f32 := broadcastInDim S256x256x256 ![] bcast_S_S256x256x256 main_cst_2
  let main_v11 : IVec S256x256x256 1 := cmpf .olt main_v9 main_v10
  let main_c_3 : IVec S_ 1 := constantI S_ 1 1#1
  let main_v12 : IVec S_ 1 := (fun x v => Host.reduce IntOp.andi x v reducesTo_S256x256x256_S_d0_1_2 h_S_) main_v11 main_c_3
  let main_v13 : IVec S_ 1 := andi main_v8 main_v12
  let main_v14 : FVec F S256x256x256 .f32 := Host.absf main_arg4
  let main_cst_4 : FVec F S_ .f32 := constant S_ .f32 0x7F800000#32
  let main_v15 : FVec F S256x256x256 .f32 := broadcastInDim S256x256x256 ![] bcast_S_S256x256x256 main_cst_4
  let main_v16 : IVec S256x256x256 1 := cmpf .olt main_v14 main_v15
  fn_part1 (F := F) main_v13 main_v16
-- ==== Kernel.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S2097152 : Shape := ⟨1, ![2097152]⟩
abbrev S1x2097152 : Shape := ⟨2, ![1, 2097152]⟩
abbrev S2097152x8x3 : Shape := ⟨3, ![2097152, 8, 3]⟩
abbrev S3x8x2097152 : Shape := ⟨3, ![3, 8, 2097152]⟩
abbrev S2097152x8 : Shape := ⟨2, ![2097152, 8]⟩
abbrev S8x2097152 : Shape := ⟨2, ![8, 2097152]⟩
abbrev S3x8x32768 : Shape := ⟨3, ![3, 8, 32768]⟩
abbrev S8x32768 : Shape := ⟨2, ![8, 32768]⟩
abbrev S1x32768 : Shape := ⟨2, ![1, 32768]⟩
abbrev S1x8x32768 : Shape := ⟨3, ![1, 8, 32768]⟩
abbrev S16777216 : Shape := ⟨1, ![16777216]⟩
abbrev S_ : Shape := ⟨0, ![]⟩
abbrev S16777216x1 : Shape := ⟨2, ![16777216, 1]⟩
abbrev S8x256x256 : Shape := ⟨3, ![8, 256, 256]⟩

abbrev nBuf : Space → Nat
  | .hbm => 53
  | .vmem => 28
  | .smem => 0
  | _ => 0

abbrev bufTy : (tb : Table) → Fin (tcTables nBuf tb) → BufTy
  | .hbm, ⟨0, _⟩ => ⟨S1x65536x32, .f32⟩
  | .hbm, ⟨1, _⟩ => ⟨S1x65536x32x8x3, .i32⟩
  | .hbm, ⟨2, _⟩ => ⟨S1x65536x32x8, .f32⟩
  | .hbm, ⟨3, _⟩ => ⟨S256x256x256, .f32⟩
  | .hbm, ⟨4, _⟩ => ⟨S256x256x256, .f32⟩
  | .hbm, ⟨5, _⟩ => ⟨S2097152, .f32⟩
  | .hbm, ⟨6, _⟩ => ⟨S1x2097152, .f32⟩
  | .hbm, ⟨7, _⟩ => ⟨S2097152x8x3, .i32⟩
  | .hbm, ⟨8, _⟩ => ⟨S3x8x2097152, .i32⟩
  | .hbm, ⟨9, _⟩ => ⟨S2097152x8, .f32⟩
  | .hbm, ⟨10, _⟩ => ⟨S8x2097152, .f32⟩
  | .hbm, ⟨11, _⟩ => ⟨S8x2097152, .f32⟩
  | .hbm, ⟨12, _⟩ => ⟨S8x2097152, .f32⟩
  | .hbm, ⟨13, _⟩ => ⟨S8x2097152, .i32⟩
  | .hbm, ⟨14, _⟩ => ⟨S8x2097152, .f32⟩
  | .hbm, ⟨15, _⟩ => ⟨S16777216, .i32⟩
  | .hbm, ⟨16, _⟩ => ⟨S_, .f32⟩
  | .hbm, ⟨17, _⟩ => ⟨S16777216, .f32⟩
  | .hbm, ⟨18, _⟩ => ⟨S16777216, .f32⟩
  | .hbm, ⟨19, _⟩ => ⟨S_, .i32⟩
  | .hbm, ⟨20, _⟩ => ⟨S16777216, .i32⟩
  | .hbm, ⟨21, _⟩ => ⟨S16777216, .i1⟩
  | .hbm, ⟨22, _⟩ => ⟨S_, .i32⟩
  | .hbm, ⟨23, _⟩ => ⟨S16777216, .i32⟩
  | .hbm, ⟨24, _⟩ => ⟨S16777216, .i32⟩
  | .hbm, ⟨25, _⟩ => ⟨S16777216, .i32⟩
  | .hbm, ⟨26, _⟩ => ⟨S16777216x1, .i32⟩
  | .hbm, ⟨27, _⟩ => ⟨S16777216, .f32⟩
  | .hbm, ⟨28, _⟩ => ⟨S256x256x256, .f32⟩
  | .hbm, ⟨29, _⟩ => ⟨S16777216, .f32⟩
  | .hbm, ⟨30, _⟩ => ⟨S_, .i32⟩
  | .hbm, ⟨31, _⟩ => ⟨S16777216, .i32⟩
  | .hbm, ⟨32, _⟩ => ⟨S16777216, .i1⟩
  | .hbm, ⟨33, _⟩ => ⟨S_, .i32⟩
  | .hbm, ⟨34, _⟩ => ⟨S16777216, .i32⟩
  | .hbm, ⟨35, _⟩ => ⟨S16777216, .i32⟩
  | .hbm, ⟨36, _⟩ => ⟨S16777216, .i32⟩
  | .hbm, ⟨37, _⟩ => ⟨S16777216x1, .i32⟩
  | .hbm, ⟨38, _⟩ => ⟨S16777216, .f32⟩
  | .hbm, ⟨39, _⟩ => ⟨S256x256x256, .f32⟩
  | .hbm, ⟨40, _⟩ => ⟨S16777216, .f32⟩
  | .hbm, ⟨41, _⟩ => ⟨S_, .i32⟩
  | .hbm, ⟨42, _⟩ => ⟨S16777216, .i32⟩
  | .hbm, ⟨43, _⟩ => ⟨S16777216, .i1⟩
  | .hbm, ⟨44, _⟩ => ⟨S_, .i32⟩
  | .hbm, ⟨45, _⟩ => ⟨S16777216, .i32⟩
  | .hbm, ⟨46, _⟩ => ⟨S16777216, .i32⟩
  | .hbm, ⟨47, _⟩ => ⟨S16777216, .i32⟩
  | .hbm, ⟨48, _⟩ => ⟨S16777216x1, .i32⟩
  | .hbm, ⟨49, _⟩ => ⟨S16777216, .f32⟩
  | .hbm, ⟨50, _⟩ => ⟨S256x256x256, .f32⟩
  | .hbm, ⟨51, _⟩ => ⟨S256x256x256, .f32⟩
  | .hbm, ⟨52, _⟩ => ⟨S256x256x256, .f32⟩
  | .local _ .vmem, ⟨0, _⟩ => ⟨S3x8x32768, .i32⟩
  | .local _ .vmem, ⟨1, _⟩ => ⟨S3x8x32768, .i32⟩
  | .local _ .vmem, ⟨2, _⟩ => ⟨S8x32768, .f32⟩
  | .local _ .vmem, ⟨3, _⟩ => ⟨S8x32768, .f32⟩
  | .local _ .vmem, ⟨4, _⟩ => ⟨S1x32768, .f32⟩
  | .local _ .vmem, ⟨5, _⟩ => ⟨S1x32768, .f32⟩
  | .local _ .vmem, ⟨6, _⟩ => ⟨S8x32768, .f32⟩
  | .local _ .vmem, ⟨7, _⟩ => ⟨S8x32768, .f32⟩
  | .local _ .vmem, ⟨8, _⟩ => ⟨S8x32768, .f32⟩
  | .local _ .vmem, ⟨9, _⟩ => ⟨S8x32768, .f32⟩
  | .local _ .vmem, ⟨10, _⟩ => ⟨S8x32768, .i32⟩
  | .local _ .vmem, ⟨11, _⟩ => ⟨S8x32768, .i32⟩
  | .local _ .vmem, ⟨12, _⟩ => ⟨S8x32768, .f32⟩
  | .local _ .vmem, ⟨13, _⟩ => ⟨S8x32768, .f32⟩
  | .local _ .vmem, ⟨14, _⟩ => ⟨S8x256x256, .f32⟩
  | .local _ .vmem, ⟨15, _⟩ => ⟨S8x256x256, .f32⟩
  | .local _ .vmem, ⟨16, _⟩ => ⟨S8x256x256, .f32⟩
  | .local _ .vmem, ⟨17, _⟩ => ⟨S8x256x256, .f32⟩
  | .local _ .vmem, ⟨18, _⟩ => ⟨S8x256x256, .f32⟩
  | .local _ .vmem, ⟨19, _⟩ => ⟨S8x256x256, .f32⟩
  | .local _ .vmem, ⟨20, _⟩ => ⟨S8x256x256, .f32⟩
  | .local _ .vmem, ⟨21, _⟩ => ⟨S8x256x256, .f32⟩
  | .local _ .vmem, ⟨22, _⟩ => ⟨S8x256x256, .f32⟩
  | .local _ .vmem, ⟨23, _⟩ => ⟨S8x256x256, .f32⟩
  | .local _ .vmem, ⟨24, _⟩ => ⟨S8x256x256, .f32⟩
  | .local _ .vmem, ⟨25, _⟩ => ⟨S8x256x256, .f32⟩
  | .local _ .vmem, ⟨26, _⟩ => ⟨S8x256x256, .f32⟩
  | .local _ .vmem, ⟨27, _⟩ => ⟨S8x256x256, .f32⟩
  | _, _ => ⟨S1x65536x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_v10 : Ref sig .tc := ⟨.hbm, 20, rfl⟩
abbrev main_v11 : Ref sig .tc := ⟨.hbm, 21, rfl⟩
abbrev main_c_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_1 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36_0 : Ref sig .tc := ⟨.hbm, 51, rfl⟩
abbrev main_v36_1 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x8x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x32768 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x32768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x256x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x256x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S8x256x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x256x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S1x65536x32_S2097152 : S1x65536x32.ShapeCasts S2097152
  shapeCasts_S2097152_S1x2097152 : S2097152.ShapeCasts S1x2097152
  shapeCasts_S1x65536x32x8x3_S2097152x8x3 : S1x65536x32x8x3.ShapeCasts S2097152x8x3
  transposes_S2097152x8x3_S3x8x2097152_2_1_0 : S2097152x8x3.Transposes [2, 1, 0] S3x8x2097152
  shapeCasts_S1x65536x32x8_S2097152x8 : S1x65536x32x8.ShapeCasts S2097152x8
  transposes_S2097152x8_S8x2097152_1_0 : S2097152x8.Transposes [1, 0] S8x2097152
  inb_S3x8x32768_S3x8x32768_0_0_0 : ∀ a, (![0, 0, 0] : Fin 3 → Nat) a + S3x8x32768.size a ≤ S3x8x32768.size a
  h_S3x8x32768 : 0 < S3x8x32768.numel
  shapeCasts_S3x8x32768_S3x8x32768 : S3x8x32768.ShapeCasts S3x8x32768
  inb_S8x32768_S8x32768_0_0 : ∀ a, (![0, 0] : Fin 2 → Nat) a + S8x32768.size a ≤ S8x32768.size a
  h_S8x32768 : 0 < S8x32768.numel
  shapeCasts_S8x32768_S8x32768 : S8x32768.ShapeCasts S8x32768
  inb_S1x32768_S1x32768_0_0 : ∀ a, (![0, 0] : Fin 2 → Nat) a + S1x32768.size a ≤ S1x32768.size a
  h_S1x32768 : 0 < S1x32768.numel
  shapeCasts_S1x32768_S1x32768 : S1x32768.ShapeCasts S1x32768
  slices_S3x8x32768_o0_0_0_S1x8x32768 : S3x8x32768.Slices ![0, 0, 0] S1x8x32768
  shapeCasts_S1x8x32768_S8x32768 : S1x8x32768.ShapeCasts S8x32768
  slices_S3x8x32768_o1_0_0_S1x8x32768 : S3x8x32768.Slices ![1, 0, 0] S1x8x32768
  slices_S3x8x32768_o2_0_0_S1x8x32768 : S3x8x32768.Slices ![2, 0, 0] S1x8x32768
  broadcasts_S1x32768_S8x32768 : S1x32768.Broadcasts S8x32768
  natLt_1_32 : 1 < 32
  shapeCasts_S8x2097152_S16777216 : S8x2097152.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S16777216_S256x256x256 : S16777216.ShapeCasts S256x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  scatter_S16777216_S16777216x1_S16777216_n_0_0_1_wf : ScatterDims.WF S16777216 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x8x32768.size a ≤ S3x8x2097152.size a
  hwx0_0 : ∀ i : grid0.Coords, EltTy.bits .i32 = 32 ∨ (Rect.block (s := S3x8x2097152) S3x8x32768.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32768.size a ≤ S8x2097152.size a
  hwx0_1 : ∀ i : grid0.Coords, EltTy.bits .f32 = 32 ∨ (Rect.block (s := S8x2097152) S8x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32768.size a ≤ S1x2097152.size a
  hwx0_2 : ∀ i : grid0.Coords, EltTy.bits .f32 = 32 ∨ (Rect.block (s := S1x2097152) S1x32768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x32768.size a ≤ S8x2097152.size a
  hwx0_3 : ∀ i : grid0.Coords, EltTy.bits .f32 = 32 ∨ (Rect.block (s := S8x2097152) S8x32768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x32768.size a ≤ S8x2097152.size a
  hwx0_4 : ∀ i : grid0.Coords, EltTy.bits .f32 = 32 ∨ (Rect.block (s := S8x2097152) S8x32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x32768.size a ≤ S8x2097152.size a
  hwx0_5 : ∀ i : grid0.Coords, EltTy.bits .i32 = 32 ∨ (Rect.block (s := S8x2097152) S8x32768.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x32768.size a ≤ S8x2097152.size a
  hwx0_6 : ∀ i : grid0.Coords, EltTy.bits .f32 = 32 ∨ (Rect.block (s := S8x2097152) S8x32768.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x256.size a ≤ S256x256x256.size a
  hwx1_0 : ∀ i : grid1.Coords, EltTy.bits .f32 = 32 ∨ (Rect.block (s := S256x256x256) S8x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x256.size a ≤ S256x256x256.size a
  hwx1_1 : ∀ i : grid1.Coords, EltTy.bits .f32 = 32 ∨ (Rect.block (s := S256x256x256) S8x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x256.size a ≤ S256x256x256.size a
  hwx1_2 : ∀ i : grid1.Coords, EltTy.bits .f32 = 32 ∨ (Rect.block (s := S256x256x256) S8x256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x256.size a ≤ S256x256x256.size a
  hwx1_3 : ∀ i : grid1.Coords, EltTy.bits .f32 = 32 ∨ (Rect.block (s := S256x256x256) S8x256x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x256x256.size a ≤ S256x256x256.size a
  hwx1_4 : ∀ i : grid1.Coords, EltTy.bits .f32 = 32 ∨ (Rect.block (s := S256x256x256) S8x256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S8x256x256.size a ≤ S256x256x256.size a
  hwx1_5 : ∀ i : grid1.Coords, EltTy.bits .f32 = 32 ∨ (Rect.block (s := S256x256x256) S8x256x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x256x256.size a ≤ S256x256x256.size a
  hwx1_6 : ∀ i : grid1.Coords, EltTy.bits .f32 = 32 ∨ (Rect.block (s := S256x256x256) S8x256x256.size (cc1_transform_6 i) (hinb1_6 i)).WholeWords (EltTy.packing .f32)

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf

abbrev win0_0 : Pipeline.Window sig grid0 :=
  Pipeline.Window.ofSpec (Memref.whole main_v3) S3x8x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S8x32768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S8x32768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_2) S8x32768.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_3) S8x32768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg3) S8x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S8x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S8x256x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S8x256x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36_0) S8x256x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36_1) S8x256x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1x65536x32 : Shape := ⟨3, ![1, 65536, 32]⟩
abbrev S1x65536x32x8x3 : Shape := ⟨5, ![1, 65536, 32, 8, 3]⟩
abbrev S1x65536x32x8 : Shape := ⟨4, ![1, 65536, 32, 8]⟩
abbrev S256x256x256 : Shape := ⟨3, ![256, 256, 256]⟩
abbrev S3 : Shape := ⟨1, ![3]⟩
abbrev S16777216x3 : Shape := ⟨2, ![16777216, 3]⟩
abbrev S16777216 : Shape := ⟨1, ![16777216]⟩
abbrev S2097152x1 : Shape := ⟨2, ![2097152, 1]⟩
abbrev S2097152x8 : Shape := ⟨2, ![2097152, 8]⟩
abbrev S16777216x1 : Shape := ⟨2, ![16777216, 1]⟩
abbrev S_ : Shape := ⟨0, ![]⟩
abbrev S1x3 : Shape := ⟨2, ![1, 3]⟩

abbrev nBuf : Space → Nat
  | .hbm => 120
  | .vmem => 0
  | .smem => 0
  | _ => 0

abbrev bufTy : (tb : Table) → Fin (tcTables nBuf tb) → BufTy
  | .hbm, ⟨0, _⟩ => ⟨S1x65536x32, .f32⟩
  | .hbm, ⟨1, _⟩ => ⟨S1x65536x32x8x3, .i32⟩
  | .hbm, ⟨2, _⟩ => ⟨S1x65536x32x8, .f32⟩
  | .hbm, ⟨3, _⟩ => ⟨S256x256x256, .f32⟩
  | .hbm, ⟨4, _⟩ => ⟨S256x256x256, .f32⟩
  | .hbm, ⟨5, _⟩ => ⟨S3, .i32⟩
  | .hbm, ⟨6, _⟩ => ⟨S16777216x3, .i32⟩
  | .hbm, ⟨7, _⟩ => ⟨S16777216, .f32⟩
  | .hbm, ⟨8, _⟩ => ⟨S2097152x1, .f32⟩
  | .hbm, ⟨9, _⟩ => ⟨S2097152x8, .f32⟩
  | .hbm, ⟨10, _⟩ => ⟨S16777216, .f32⟩
  | .hbm, ⟨11, _⟩ => ⟨S16777216x1, .i32⟩
  | .hbm, ⟨12, _⟩ => ⟨S16777216, .i32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S16777216x1, .i32⟩
  | .hbm, ⟨17, _⟩ => ⟨S16777216, .i32⟩
  | .hbm, ⟨18, _⟩ => ⟨S_, .i32⟩
  | .hbm, ⟨19, _⟩ => ⟨S16777216, .i32⟩
  | .hbm, ⟨20, _⟩ => ⟨S16777216, .i1⟩
  | .hbm, ⟨21, _⟩ => ⟨S16777216, .i1⟩
  | .hbm, ⟨22, _⟩ => ⟨S16777216x1, .i32⟩
  | .hbm, ⟨23, _⟩ => ⟨S16777216, .i32⟩
  | .hbm, ⟨24, _⟩ => ⟨S_, .i32⟩
  | .hbm, ⟨25, _⟩ => ⟨S16777216, .i32⟩
  | .hbm, ⟨26, _⟩ => ⟨S16777216, .i1⟩
  | .hbm, ⟨27, _⟩ => ⟨S16777216, .i1⟩
  | .hbm, ⟨28, _⟩ => ⟨S16777216x1, .i32⟩
  | .hbm, ⟨29, _⟩ => ⟨S16777216, .i32⟩
  | .hbm, ⟨30, _⟩ => ⟨S_, .i32⟩
  | .hbm, ⟨31, _⟩ => ⟨S16777216, .i32⟩
  | .hbm, ⟨32, _⟩ => ⟨S16777216, .i1⟩
  | .hbm, ⟨33, _⟩ => ⟨S16777216, .i1⟩
  | .hbm, ⟨34, _⟩ => ⟨S16777216x1, .i32⟩
  | .hbm, ⟨35, _⟩ => ⟨S16777216, .i32⟩
  | .hbm, ⟨36, _⟩ => ⟨S_, .i32⟩
  | .hbm, ⟨37, _⟩ => ⟨S16777216, .i32⟩
  | .hbm, ⟨38, _⟩ => ⟨S16777216, .i1⟩
  | .hbm, ⟨39, _⟩ => ⟨S16777216, .i1⟩
  | .hbm, ⟨40, _⟩ => ⟨S16777216x1, .i32⟩
  | .hbm, ⟨41, _⟩ => ⟨S16777216, .i32⟩
  | .hbm, ⟨42, _⟩ => ⟨S_, .i32⟩
  | .hbm, ⟨43, _⟩ => ⟨S16777216, .i32⟩
  | .hbm, ⟨44, _⟩ => ⟨S16777216, .i1⟩
  | .hbm, ⟨45, _⟩ => ⟨S16777216, .i1⟩
  | .hbm, ⟨46, _⟩ => ⟨S_, .i32⟩
  | .hbm, ⟨47, _⟩ => ⟨S_, .i32⟩
  | .hbm, ⟨48, _⟩ => ⟨S16777216x3, .i32⟩
  | .hbm, ⟨49, _⟩ => ⟨S16777216x3, .i32⟩
  | .hbm, ⟨50, _⟩ => ⟨S1x3, .i32⟩
  | .hbm, ⟨51, _⟩ => ⟨S16777216x3, .i32⟩
  | .hbm, ⟨52, _⟩ => ⟨S16777216x3, .i32⟩
  | .hbm, ⟨53, _⟩ => ⟨S16777216x1, .i32⟩
  | .hbm, ⟨54, _⟩ => ⟨S16777216, .i32⟩
  | .hbm, ⟨55, _⟩ => ⟨S_, .i32⟩
  | .hbm, ⟨56, _⟩ => ⟨S16777216, .i32⟩
  | .hbm, ⟨57, _⟩ => ⟨S16777216, .i32⟩
  | .hbm, ⟨58, _⟩ => ⟨S16777216x1, .i32⟩
  | .hbm, ⟨59, _⟩ => ⟨S16777216, .i32⟩
  | .hbm, ⟨60, _⟩ => ⟨S_, .i32⟩
  | .hbm, ⟨61, _⟩ => ⟨S16777216, .i32⟩
  | .hbm, ⟨62, _⟩ => ⟨S16777216, .i32⟩
  | .hbm, ⟨63, _⟩ => ⟨S16777216, .i32⟩
  | .hbm, ⟨64, _⟩ => ⟨S16777216x1, .i32⟩
  | .hbm, ⟨65, _⟩ => ⟨S16777216, .i32⟩
  | .hbm, ⟨66, _⟩ => ⟨S16777216, .i32⟩
  | .hbm, ⟨67, _⟩ => ⟨S_, .f32⟩
  | .hbm, ⟨68, _⟩ => ⟨S_, .f32⟩
  | .hbm, ⟨69, _⟩ => ⟨S16777216, .f32⟩
  | .hbm, ⟨70, _⟩ => ⟨S16777216, .f32⟩
  | .hbm, ⟨71, _⟩ => ⟨S16777216, .f32⟩
  | .hbm, ⟨72, _⟩ => ⟨S_, .f32⟩
  | .hbm, ⟨73, _⟩ => ⟨S_, .f32⟩
  | .hbm, ⟨74, _⟩ => ⟨S16777216, .f32⟩
  | .hbm, ⟨75, _⟩ => ⟨S16777216, .f32⟩
  | .hbm, ⟨76, _⟩ => ⟨S_, .f32⟩
  | .hbm, ⟨77, _⟩ => ⟨S16777216, .f32⟩
  | .hbm, ⟨78, _⟩ => ⟨S_, .i32⟩
  | .hbm, ⟨79, _⟩ => ⟨S16777216, .i32⟩
  | .hbm, ⟨80, _⟩ => ⟨S16777216, .i1⟩
  | .hbm, ⟨81, _⟩ => ⟨S_, .i32⟩
  | .hbm, ⟨82, _⟩ => ⟨S16777216, .i32⟩
  | .hbm, ⟨83, _⟩ => ⟨S16777216, .i32⟩
  | .hbm, ⟨84, _⟩ => ⟨S16777216, .i32⟩
  | .hbm, ⟨85, _⟩ => ⟨S16777216x1, .i32⟩
  | .hbm, ⟨86, _⟩ => ⟨S16777216, .f32⟩
  | .hbm, ⟨87, _⟩ => ⟨S256x256x256, .f32⟩
  | .hbm, ⟨88, _⟩ => ⟨S_, .i32⟩
  | .hbm, ⟨89, _⟩ => ⟨S16777216, .i32⟩
  | .hbm, ⟨90, _⟩ => ⟨S16777216, .i1⟩
  | .hbm, ⟨91, _⟩ => ⟨S_, .i32⟩
  | .hbm, ⟨92, _⟩ => ⟨S16777216, .i32⟩
  | .hbm, ⟨93, _⟩ => ⟨S16777216, .i32⟩
  | .hbm, ⟨94, _⟩ => ⟨S16777216, .i32⟩
  | .hbm, ⟨95, _⟩ => ⟨S16777216x1, .i32⟩
  | .hbm, ⟨96, _⟩ => ⟨S16777216, .f32⟩
  | .hbm, ⟨97, _⟩ => ⟨S256x256x256, .f32⟩
  | .hbm, ⟨98, _⟩ => ⟨S_, .i32⟩
  | .hbm, ⟨99, _⟩ => ⟨S16777216, .i32⟩
  | .hbm, ⟨100, _⟩ => ⟨S16777216, .i32⟩
  | .hbm, ⟨101, _⟩ => ⟨S_, .i32⟩
  | .hbm, ⟨102, _⟩ => ⟨S16777216, .i32⟩
  | .hbm, ⟨103, _⟩ => ⟨S16777216, .i1⟩
  | .hbm, ⟨104, _⟩ => ⟨S_, .i32⟩
  | .hbm, ⟨105, _⟩ => ⟨S16777216, .i32⟩
  | .hbm, ⟨106, _⟩ => ⟨S16777216, .i32⟩
  | .hbm, ⟨107, _⟩ => ⟨S16777216, .i32⟩
  | .hbm, ⟨108, _⟩ => ⟨S16777216x1, .i32⟩
  | .hbm, ⟨109, _⟩ => ⟨S16777216, .i32⟩
  | .hbm, ⟨110, _⟩ => ⟨S256x256x256, .i32⟩
  | .hbm, ⟨111, _⟩ => ⟨S_, .i32⟩
  | .hbm, ⟨112, _⟩ => ⟨S256x256x256, .i32⟩
  | .hbm, ⟨113, _⟩ => ⟨S256x256x256, .i1⟩
  | .hbm, ⟨114, _⟩ => ⟨S256x256x256, .f32⟩
  | .hbm, ⟨115, _⟩ => ⟨S256x256x256, .f32⟩
  | .hbm, ⟨116, _⟩ => ⟨S256x256x256, .f32⟩
  | .hbm, ⟨117, _⟩ => ⟨S256x256x256, .f32⟩
  | .hbm, ⟨118, _⟩ => ⟨S256x256x256, .f32⟩
  | .hbm, ⟨119, _⟩ => ⟨S256x256x256, .f32⟩
  | _, _ => ⟨S1x65536x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_v48 : Ref sig .tc := ⟨.hbm, 71, rfl⟩
abbrev main_cst_9 : Ref sig .tc := ⟨.hbm, 72, rfl⟩
abbrev main_call2_v0 : Ref sig .tc := ⟨.hbm, 73, rfl⟩
abbrev main_call2_v1 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_c_12 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_c_14 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_c_15 : Ref sig .tc := ⟨.hbm, 98, rfl⟩
abbrev main_v67 : Ref sig .tc := ⟨.hbm, 99, rfl⟩
abbrev main_v68 : Ref sig .tc := ⟨.hbm, 100, rfl⟩
abbrev main_c_16 : Ref sig .tc := ⟨.hbm, 101, rfl⟩
abbrev main_v69 : Ref sig .tc := ⟨.hbm, 102, rfl⟩
abbrev main_v70 : Ref sig .tc := ⟨.hbm, 103, rfl⟩
abbrev main_c_17 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]

class Facts₀ : Prop where
  shapeCasts_S1x65536x32x8x3_S16777216x3 : S1x65536x32x8x3.ShapeCasts S16777216x3
  shapeCasts_S1x65536x32x8_S16777216 : S1x65536x32x8.ShapeCasts S16777216
  shapeCasts_S1x65536x32_S2097152x1 : S1x65536x32.ShapeCasts S2097152x1
  bcast_S2097152x1_S2097152x8_0_1 : S2097152x1.BroadcastsInDim S2097152x8 (![0, 1] : Fin 2 → Fin S2097152x8.rank)
  shapeCasts_S2097152x8_S16777216 : S2097152x8.ShapeCasts S16777216
  slices_S16777216x3_S16777216x1_0_0 : S16777216x3.Slices ![0, 0] S16777216x1
  shapeCasts_S16777216x1_S16777216 : S16777216x1.ShapeCasts S16777216
  bcast_S_S16777216 : S_.BroadcastsInDim S16777216 (![] : Fin 0 → Fin S16777216.rank)
  slices_S16777216x3_S16777216x1_0_1 : S16777216x3.Slices ![0, 1] S16777216x1
  slices_S16777216x3_S16777216x1_0_2 : S16777216x3.Slices ![0, 2] S16777216x1
  bcast_S_S16777216x3 : S_.BroadcastsInDim S16777216x3 (![] : Fin 0 → Fin S16777216x3.rank)
  bcast_S3_S1x3_1 : S3.BroadcastsInDim S1x3 (![1] : Fin 1 → Fin S1x3.rank)
  bcast_S1x3_S16777216x3_0_1 : S1x3.BroadcastsInDim S16777216x3 (![0, 1] : Fin 2 → Fin S16777216x3.rank)
  bcast_S16777216_S16777216x1_0 : S16777216.BroadcastsInDim S16777216x1 (![0] : Fin 1 → Fin S16777216x1.rank)
  shapeCasts_S16777216_S256x256x256 : S16777216.ShapeCasts S256x256x256
  natLt_1_32 : 1 < 32
  bcast_S_S256x256x256 : S_.BroadcastsInDim S256x256x256 (![] : Fin 0 → Fin S256x256x256.rank)
  scatter_S16777216_S16777216x1_S16777216_n_0_0_1_wf : ScatterDims.WF S16777216 S16777216x1 S16777216 [] [0] [0] 1

variable [Facts₀]

def scatter_S16777216_S16777216x1_S16777216_n_0_0_1 : ScatterDims S16777216 S16777216x1 S16777216 where
  updateWindowDims := []
  insertedWindowDims := [0]
  scatterDimsToOperandDims := [0]
  indexVectorDim := 1
  wf := scatter_S16777216_S16777216x1_S16777216_n_0_0_1_wf

class Facts : Prop extends Facts₀ where

variable [Facts]
-- ==== Proof.KernelHost.lean ====
/-
  The host operations around the two regions, read as functions.

  Before the first region the three inputs are re-laid so that the long "points" axis comes last: the coordinates
  [1, 65536, 32, 8, 3] become planes [3, 8, P] (a reshape to [P, 8, 3], then the axes reversed), the weights
  [1, 65536, 32, 8] become [8, P] (a reshape to [P, 8], transposed), the values [1, 65536, 32] a row [1, P].
  Between the regions each of the first region's three float outputs [8, P] is flattened and scatter-added into a zero
  volume of 16777216 voxels at the flattened voxel numbers (a negative number first wrapped by the volume's size, as an
  indexing operation does), and the volume reshaped to [256, 256, 256]; the two old volumes pass through untouched.
-/
import proofs.«162537_j82463372083721_1_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Flat voxel numbers as the scatter's index column: a negative number is wrapped once by the volume's size. -/
def idxCol (f : IVec S16777216 32) : IVec S16777216x1 32 :=
  broadcastInDim S16777216x1 ![0] bcast_S16777216_S16777216x1_0
    (select (cmpi .slt f (broadcastInDim S16777216 ![] bcast_S_S16777216 (constantI S_ 32 0#32)))
      (addi f (broadcastInDim S16777216 ![] bcast_S_S16777216 (constantI S_ 32 16777216#32))) f)

/-- The [8, P] updates `u` scatter-added into a zero volume at the [8, P] voxel numbers `f`, as a [256, 256, 256] array. -/
def scatterVol (f : IVec S8x2097152 32) (u : FVec F S8x2097152 .f32) : FVec F S256x256x256 .f32 :=
  shapeCast S256x256x256
    (Host.scatterAdd scatter_S16777216_S16777216x1_S16777216_n_0_0_1
      (broadcastInDim S16777216 ![] bcast_S_S16777216 (constant (F := F) S_ .f32 0x00000000#32))
      (idxCol (shapeCast S16777216 f shapeCasts_S8x2097152_S16777216))
      (shapeCast S16777216 u shapeCasts_S8x2097152_S16777216))
    shapeCasts_S16777216_S256x256x256

variable (m : (ℓ : Loc nD τ sig) → Buf (Elt F) ℓ) (ρ : Dev nD → PrngReg)

/-! ## What the first region is entered with -/

/-- The coordinate planes [3, 8, P]. -/
theorem entry0_planes (c : Dev nD) : V1 m ρ c main_v3 =
    transpose S3x8x2097152 [2, 1, 0]
      (shapeCast S2097152x8x3 (m ((c : Thread nD τ).loc main_arg1)) shapeCasts_S1x65536x32x8x3_S2097152x8x3)
      transposes_S2097152x8x3_S3x8x2097152_2_1_0 := by
  show StableHlo.after hostOps0 (W0 m ρ c) (Proc.devRef .tc main_v3) = _
  after_results
  rfl

/-- The weights [8, P]. -/
theorem entry0_weights (c : Dev nD) : V1 m ρ c main_v5 =
    transpose S8x2097152 [1, 0]
      (shapeCast S2097152x8 (m ((c : Thread nD τ).loc main_arg2)) shapeCasts_S1x65536x32x8_S2097152x8)
      transposes_S2097152x8_S8x2097152_1_0 := by
  show StableHlo.after hostOps0 (W0 m ρ c) (Proc.devRef .tc main_v5) = _
  after_results
  rfl

/-- The values as a row [1, P]. -/
theorem entry0_values (c : Dev nD) : V1 m ρ c main_v1 =
    shapeCast S1x2097152 (shapeCast S2097152 (m ((c : Thread nD τ).loc main_arg0)) shapeCasts_S1x65536x32_S2097152)
      shapeCasts_S2097152_S1x2097152 := by
  show StableHlo.after hostOps0 (W0 m ρ c) (Proc.devRef .tc main_v1) = _
  after_results
  rfl

/-! ## What the second region is entered with -/

/-- The scattered weights: the first region's output 0 at the voxel numbers of its output 2. -/
theorem entry1_wsum (c : Dev nD) : V3 m ρ c main_v17 =
    scatterVol (W2 m ρ c (Proc.devRef .tc main_v6_2)) (W2 m ρ c (Proc.devRef .tc main_v6_0)) := by
  show StableHlo.after hostOps1 (W2 m ρ c) (Proc.devRef .tc main_v17) = _
  after_results_simp
  rfl

/-- The scattered weight·value products: output 1 at the same voxel numbers. -/
theorem entry1_wvsum (c : Dev nD) : V3 m ρ c main_v26 =
    scatterVol (W2 m ρ c (Proc.devRef .tc main_v6_2)) (W2 m ρ c (Proc.devRef .tc main_v6_1)) := by
  show StableHlo.after hostOps1 (W2 m ρ c) (Proc.devRef .tc main_v26) = _
  after_results_simp
  rfl

/-- The hit counts: output 3 at the same voxel numbers. -/
theorem entry1_count (c : Dev nD) : V3 m ρ c main_v35 =
    scatterVol (W2 m ρ c (Proc.devRef .tc main_v6_2)) (W2 m ρ c (Proc.devRef .tc main_v6_3)) := by
  show StableHlo.after hostOps1 (W2 m ρ c) (Proc.devRef .tc main_v35) = _
  after_results_simp
  rfl

/-- No host operation and no write-back of the first region touches `main_arg3`: the second region finds it as launched. -/
theorem entry1_main_arg3 (c : Dev nD) : V3 m ρ c main_arg3 = m ((c : Thread nD τ).loc main_arg3) :=
  calc W3 m ρ c (Proc.devRef .tc main_arg3)
    _ = W2 m ρ c (Proc.devRef .tc main_arg3) := StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg3) := rfl

/-- No host operation and no write-back of the first region touches `main_arg4`: the second region finds it as launched. -/
theorem entry1_main_arg4 (c : Dev nD) : V3 m ρ c main_arg4 = m ((c : Thread nD τ).loc main_arg4) :=
  calc W3 m ρ c (Proc.devRef .tc main_arg4)
    _ = W2 m ρ c (Proc.devRef .tc main_arg4) := StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg4) := rfl

end Cert.KernelIdeal.HostValue

end
-- ==== Proof.Spec.lean ====
/-
  The mathematics both programs compute, stated once, element by element.

  A sample point p (of 2097152) has eight corners k; corner (p, k) carries an integer voxel coordinate (x, y, z), a weight
  w, and the point's value v. A corner is INSIDE when 0 ≤ x, y, z < 256. It lands on voxel 65536·cx + 256·cy + cz, the
  coordinates clamped to [0, 255], and contributes there: its weight, its weight times the value, and one hit, each only
  when it is inside. A voxel is TOUCHED when its hit count is positive; a touched voxel takes the weighted average
  (wv·vv + Σ w·v) / (wv + Σ w) and the weight wv + Σ w, an untouched one keeps vv and wv.
-/
import Idealize.ShloMosaic.PureOps.Vector
import Idealize.ShloMosaic.Lib.ValueIdx

noncomputable section

namespace Cert.Spec

open Idealize.ShloMosaic Idealize.ShloMosaic.ValueIdx

variable {F : FTy → Type} [FloatOps F]

/-- The corner (x, y, z) lies in the 256³ volume: six signed comparisons, conjoined left to right. -/
def inside (x y z : BitVec 32) : BitVec 1 :=
  IntOp.andi (IntOp.andi (IntOp.andi (IntOp.andi (IntOp.andi (IntOp.cmpi .sge x 0#32) (IntOp.cmpi .slt x 256#32))
    (IntOp.cmpi .sge y 0#32)) (IntOp.cmpi .slt y 256#32)) (IntOp.cmpi .sge z 0#32)) (IntOp.cmpi .slt z 256#32)

/-- A coordinate clamped to [0, 255]. -/
def clamp (x : BitVec 32) : BitVec 32 := IntOp.minsi 255#32 (IntOp.maxsi 0#32 x)

/-- The flat voxel number of the clamped corner. -/
def voxel (x y z : BitVec 32) : BitVec 32 :=
  IntOp.addi (IntOp.addi (IntOp.muli 65536#32 (clamp x)) (IntOp.muli 256#32 (clamp y))) (clamp z)

/-- A corner's weight, kept only inside. -/
def keepW (x y z : BitVec 32) (w : F .f32) : F .f32 :=
  Scalar.select (inside x y z) w (FloatOps.ofBits .f32 0x00000000#32)

/-- A corner's weight times its point's value, kept only inside. -/
def keepWV (x y z : BitVec 32) (w v : F .f32) : F .f32 :=
  Scalar.select (inside x y z) (FloatOps.mulf w v) (FloatOps.ofBits .f32 0x00000000#32)

/-- One hit for a corner inside, none outside, as a float. -/
def hit (x y z : BitVec 32) : F .f32 := FloatOps.sitofp .f32 ((inside x y z).setWidth 32)

/-! ### The corner arrays in the kernel's layout: coordinate planes [3, 8, P], weights [8, P], values [1, P] -/

abbrev SX : Shape := ⟨3, ![3, 8, 2097152]⟩
abbrev SW : Shape := ⟨2, ![8, 2097152]⟩
abbrev SV : Shape := ⟨2, ![1, 2097152]⟩
abbrev SVol : Shape := ⟨3, ![256, 256, 256]⟩

def insideAt (X : IVec SX 32) (k : Fin 8) (p : Fin 2097152) : BitVec 1 :=
  inside (X (ix3 (0 : Fin 3) k p)) (X (ix3 (1 : Fin 3) k p)) (X (ix3 (2 : Fin 3) k p))
def voxelAt (X : IVec SX 32) (k : Fin 8) (p : Fin 2097152) : BitVec 32 :=
  voxel (X (ix3 (0 : Fin 3) k p)) (X (ix3 (1 : Fin 3) k p)) (X (ix3 (2 : Fin 3) k p))
def keepWAt (X : IVec SX 32) (W : FVec F SW .f32) (k : Fin 8) (p : Fin 2097152) : F .f32 :=
  keepW (X (ix3 (0 : Fin 3) k p)) (X (ix3 (1 : Fin 3) k p)) (X (ix3 (2 : Fin 3) k p)) (W (ix2 k p))
def keepWVAt (X : IVec SX 32) (W : FVec F SW .f32) (Vv : FVec F SV .f32) (k : Fin 8) (p : Fin 2097152) : F .f32 :=
  keepWV (X (ix3 (0 : Fin 3) k p)) (X (ix3 (1 : Fin 3) k p)) (X (ix3 (2 : Fin 3) k p)) (W (ix2 k p)) (Vv (ix2 (0 : Fin 1) p))
def hitAt (X : IVec SX 32) (k : Fin 8) (p : Fin 2097152) : F .f32 :=
  hit (X (ix3 (0 : Fin 3) k p)) (X (ix3 (1 : Fin 3) k p)) (X (ix3 (2 : Fin 3) k p))

/-- The four arrays the first pass writes, each [8, P], corner k of point p at (k, p). -/
def keptW (X : IVec SX 32) (W : FVec F SW .f32) : FVec F SW .f32 := fun j => keepWAt X W (j 0) (j 1)
def keptWV (X : IVec SX 32) (W : FVec F SW .f32) (Vv : FVec F SV .f32) : FVec F SW .f32 := fun j => keepWVAt X W Vv (j 0) (j 1)
def voxels (X : IVec SX 32) : IVec SW 32 := fun j => voxelAt X (j 0) (j 1)
def hits (X : IVec SX 32) : FVec F SW .f32 := fun j => hitAt X (j 0) (j 1)

/-! ### The combine, voxel by voxel -/

/-- Touched: the hit count is positive. -/
def touched (cnt : F .f32) : BitVec 1 := FloatOps.cmpf .ogt cnt (FloatOps.ofBits .f32 0x00000000#32)

/-- The new value of a voxel: the weighted average where touched, the old value elsewhere. -/
def newValue (vv wv wc vc cnt : F .f32) : F .f32 :=
  Scalar.select (touched cnt) (FloatOps.divf (FloatOps.addf (FloatOps.mulf wv vv) vc) (FloatOps.addf wv wc)) vv

/-- The new weight of a voxel. -/
def newWeight (wv wc cnt : F .f32) : F .f32 := Scalar.select (touched cnt) (FloatOps.addf wv wc) wv

def newValues (vv wv wc vc cnt : FVec F SVol .f32) : FVec F SVol .f32 := fun i => newValue (vv i) (wv i) (wc i) (vc i) (cnt i)
def newWeights (wv wc cnt : FVec F SVol .f32) : FVec F SVol .f32 := fun i => newWeight (wv i) (wc i) (cnt i)

end Cert.Spec

end
-- ==== Proof.PrepValue.lean ====
/-
  The first pass's four output arrays, each as one function of the pass's three input arrays.

  The pass walks the 2097152 sample points in 64 blocks of 32768. At block t it reads the coordinate planes
  [3, 8, 32768], the weights [8, 32768] and the value row [1, 32768] at points 32768 t .. 32768 t + 32767, and writes
  four [8, 32768] blocks at the same points: for corner k of point p, the weight kept only inside the volume, the
  weight times the point's value kept only inside, the voxel number of the clamped corner, and one hit inside, none
  outside. Each written block is therefore block t of one whole-array function (Spec's keptW, keptWV, voxels, hits), the
  64 blocks tile the point axis, and so each array ends holding that function of the input arrays.
-/
import proofs.«162537_j82463372083721_1_alg».proof.Proof.Gen.KernelIdeal.Frame
import proofs.«162537_j82463372083721_1_alg».proof.Proof.Spec
import Idealize.ShloMosaic.Lib.Pipeline.Value
import Idealize.ShloMosaic.Lib.ValueIdx

set_option maxRecDepth 16384

noncomputable section

namespace Cert.KernelIdeal.PrepValue

open Cert.KernelIdeal Cert.KernelIdeal.Gen Cert.Spec Idealize.ShloMosaic Idealize.ShloMosaic.TcCoe Idealize.ShloMosaic.ValueIdx

variable {F : FTy → Type} [FloatOps F]

/-! ## The block's offsets are zero, and where each window's block sits -/

theorem zero2 : (![0, 0] : Fin 2 → Nat) = fun _ => 0 := funext fun a => by fin_cases a <;> rfl
theorem zero3 : (![0, 0, 0] : Fin 3 → Nat) = fun _ => 0 := funext fun a => by fin_cases a <;> rfl

/-- Point t of the 64 takes block t along the point axis of every window, block 0 along the others. -/
theorem blockIndex : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val :=
  (by decide +kernel : ∀ t : Fin grid0.N, _)

/-! ## The payloads read at an index

Corner k of the block's point q has its three coordinates in planes 0, 1, 2 of the [3, 8, 32768] block; the weight
block and the value row pass through shape casts that change nothing. -/

/-- Plane 0 of the coordinate block as an [8, 32768] array: entry (k, q) is the block's entry (0, k, q). -/
theorem planeX_apply (x0 : Vec F S3x8x32768 .i32) (k : Fin 8) (q : Fin 32768) :
    k0_pay8 x0 (ix2 k q) = x0 (ix3 (0 : Fin 3) k q) := by
  unfold k0_pay8 k0_pay5
  refine (shapeCast_apply _ _ (ix2 k q) (ix3 (0 : Fin 1) k q) ?_).trans ?_
  · rw [Shape.rowMajor_val_three, Shape.rowMajor_val_two]
    show ((0 * 8 + k.val) * 32768 + q.val) = k.val * 32768 + q.val
    omega
  refine (extractStridedSlice_apply _ _ _ (ix3 (0 : Fin 1) k q) (ix3 (0 : Fin 3) k q) ?_).trans ?_
  · intro a
    match a with
    | ⟨0, _⟩ => rfl
    | ⟨1, _⟩ => show k.val = 0 + k.val; omega
    | ⟨2, _⟩ => show q.val = 0 + q.val; omega
  rw [shapeCast_self]

/-- Plane 1 likewise: entry (k, q) is the block's entry (1, k, q). -/
theorem planeY_apply (x0 : Vec F S3x8x32768 .i32) (k : Fin 8) (q : Fin 32768) :
    k0_pay9 x0 (ix2 k q) = x0 (ix3 (1 : Fin 3) k q) := by
  unfold k0_pay9 k0_pay5
  refine (shapeCast_apply _ _ (ix2 k q) (ix3 (0 : Fin 1) k q) ?_).trans ?_
  · rw [Shape.rowMajor_val_three, Shape.rowMajor_val_two]
    show ((0 * 8 + k.val) * 32768 + q.val) = k.val * 32768 + q.val
    omega
  refine (extractStridedSlice_apply _ _ _ (ix3 (0 : Fin 1) k q) (ix3 (1 : Fin 3) k q) ?_).trans ?_
  · intro a
    match a with
    | ⟨0, _⟩ => rfl
    | ⟨1, _⟩ => show k.val = 0 + k.val; omega
    | ⟨2, _⟩ => show q.val = 0 + q.val; omega
  rw [shapeCast_self]

/-- Plane 2 likewise: entry (k, q) is the block's entry (2, k, q). -/
theorem planeZ_apply (x0 : Vec F S3x8x32768 .i32) (k : Fin 8) (q : Fin 32768) :
    k0_pay10 x0 (ix2 k q) = x0 (ix3 (2 : Fin 3) k q) := by
  unfold k0_pay10 k0_pay5
  refine (shapeCast_apply _ _ (ix2 k q) (ix3 (0 : Fin 1) k q) ?_).trans ?_
  · rw [Shape.rowMajor_val_three, Shape.rowMajor_val_two]
    show ((0 * 8 + k.val) * 32768 + q.val) = k.val * 32768 + q.val
    omega
  refine (extractStridedSlice_apply _ _ _ (ix3 (0 : Fin 1) k q) (ix3 (2 : Fin 3) k q) ?_).trans ?_
  · intro a
    match a with
    | ⟨0, _⟩ => rfl
    | ⟨1, _⟩ => show k.val = 0 + k.val; omega
    | ⟨2, _⟩ => show q.val = 0 + q.val; omega
  rw [shapeCast_self]

/-- The weight block is read as it is. -/
theorem weights_id (x1 : Vec F S8x32768 .f32) : k0_pay6 x1 = x1 := by
  unfold k0_pay6; exact shapeCast_self _ _

/-- The value row is read as it is. -/
theorem values_id (x2 : Vec F S1x32768 .f32) : k0_pay7 x2 = x2 := by
  unfold k0_pay7; exact shapeCast_self _ _

/-- The value row spread over the eight corners: corner k of point q reads the row's entry (0, q). -/
theorem valueRow_apply (x2 : FVec F S1x32768 .f32) (k : Fin 8) (q : Fin 32768) :
    broadcastTo S8x32768 (shapeCast S1x32768 x2 shapeCasts_S1x32768_S1x32768) broadcasts_S1x32768_S8x32768 (ix2 k q)
      = x2 (ix2 (0 : Fin 1) q) := by
  rw [shapeCast_self]
  refine broadcastTo_apply _ _ (ix2 k q) (ix2 (0 : Fin 1) q) ?_
  intro a
  match a with
  | ⟨0, _⟩ => rfl
  | ⟨1, _⟩ => rfl

/-- The mask at corner (k, q): the corner's three coordinates lie in the volume. -/
theorem inside_apply (x0 : Vec F S3x8x32768 .i32) (k : Fin 8) (q : Fin 32768) :
    k0_pay11 x0 (ix2 k q) = inside (x0 (ix3 (0 : Fin 3) k q)) (x0 (ix3 (1 : Fin 3) k q)) (x0 (ix3 (2 : Fin 3) k q)) := by
  rw [← planeX_apply x0 k q, ← planeY_apply x0 k q, ← planeZ_apply x0 k q]
  rfl

/-- The kept weight at corner (k, q). -/
theorem keptW_block (x0 : Vec F S3x8x32768 .i32) (x1 : Vec F S8x32768 .f32) (k : Fin 8) (q : Fin 32768) :
    k0_pay2 (k0_pay6 x1) (k0_pay11 x0) (ix2 k q)
      = keepW (x0 (ix3 (0 : Fin 3) k q)) (x0 (ix3 (1 : Fin 3) k q)) (x0 (ix3 (2 : Fin 3) k q)) (x1 (ix2 k q)) := by
  unfold keepW
  rw [← inside_apply x0 k q, weights_id]
  rfl

/-- The kept weight times value at corner (k, q). -/
theorem keptWV_block (x0 : Vec F S3x8x32768 .i32) (x1 : Vec F S8x32768 .f32) (x2 : Vec F S1x32768 .f32)
    (k : Fin 8) (q : Fin 32768) :
    k0_pay3 (k0_pay6 x1) (k0_pay7 x2) (k0_pay11 x0) (ix2 k q)
      = keepWV (x0 (ix3 (0 : Fin 3) k q)) (x0 (ix3 (1 : Fin 3) k q)) (x0 (ix3 (2 : Fin 3) k q)) (x1 (ix2 k q))
          (x2 (ix2 (0 : Fin 1) q)) := by
  unfold keepWV
  rw [← inside_apply x0 k q, ← valueRow_apply x2 k q, weights_id, values_id]
  rfl

/-- The voxel number of corner (k, q). -/
theorem voxels_block (x0 : Vec F S3x8x32768 .i32) (k : Fin 8) (q : Fin 32768) :
    k0_pay1 (k0_pay12 x0) (k0_pay13 x0) (k0_pay14 x0) k0_pay15 (ix2 k q)
      = voxel (x0 (ix3 (0 : Fin 3) k q)) (x0 (ix3 (1 : Fin 3) k q)) (x0 (ix3 (2 : Fin 3) k q)) := by
  rw [← planeX_apply x0 k q, ← planeY_apply x0 k q, ← planeZ_apply x0 k q]
  rfl

/-- The hit of corner (k, q). -/
theorem hits_block (x0 : Vec F S3x8x32768 .i32) (k : Fin 8) (q : Fin 32768) :
    k0_pay4 (F := F) (k0_pay11 x0) (ix2 k q)
      = hit (x0 (ix3 (0 : Fin 3) k q)) (x0 (ix3 (1 : Fin 3) k q)) (x0 (ix3 (2 : Fin 3) k q)) := by
  unfold hit
  rw [← inside_apply x0 k q]
  rfl

/-! ## The input blocks of point t, read off the arrays -/

section Arrays
variable (V : (c : Dev nD) → (b : Ref sig .tc) → Buf (Elt F) ((c : Thread nD τ).loc b))

/-- The coordinate block of point t: its entry (a, k, q) is the array's entry (a, k, 32768 t + q). -/
theorem coordBlock_apply (c : Dev nD) (t : Fin cfg0.N) (a : Fin 3) (k : Fin 8) (q : Fin 32768) (p : Fin 2097152)
    (hp : p.val = t.val * 32768 + q.val) :
    iblk0 V c 0 t (ix3 a k q) = V c main_v3 (ix3 a k p) := by
  show V c main_v3 (((cfg0.win 0).blk t).view.emb (ix3 a k q)) = V c main_v3 (ix3 a k p)
  refine congrArg (V c main_v3) (funext fun b => Fin.ext ?_)
  obtain ⟨e0, e1, e2, -⟩ := blockIndex t
  match b with
  | ⟨0, _⟩ => show win0_0.index t (0 : Fin 3) * 3 + 1 * a.val = a.val; omega
  | ⟨1, _⟩ => show win0_0.index t (1 : Fin 3) * 8 + 1 * k.val = k.val; omega
  | ⟨2, _⟩ => show win0_0.index t (2 : Fin 3) * 32768 + 1 * q.val = p.val; omega

/-- The weight block of point t: its entry (k, q) is the array's entry (k, 32768 t + q). -/
theorem weightBlock_apply (c : Dev nD) (t : Fin cfg0.N) (k : Fin 8) (q : Fin 32768) (p : Fin 2097152)
    (hp : p.val = t.val * 32768 + q.val) :
    iblk0 V c 1 t (ix2 k q) = V c main_v5 (ix2 k p) := by
  show V c main_v5 (((cfg0.win 1).blk t).view.emb (ix2 k q)) = V c main_v5 (ix2 k p)
  refine congrArg (V c main_v5) (funext fun b => Fin.ext ?_)
  obtain ⟨-, -, -, e0, e1, -⟩ := blockIndex t
  match b with
  | ⟨0, _⟩ => show win0_1.index t (0 : Fin 2) * 8 + 1 * k.val = k.val; omega
  | ⟨1, _⟩ => show win0_1.index t (1 : Fin 2) * 32768 + 1 * q.val = p.val; omega

/-- The value row of point t: its entry (0, q) is the array's entry (0, 32768 t + q). -/
theorem valueBlock_apply (c : Dev nD) (t : Fin cfg0.N) (q : Fin 32768) (p : Fin 2097152)
    (hp : p.val = t.val * 32768 + q.val) :
    iblk0 V c 2 t (ix2 (0 : Fin 1) q) = V c main_v1 (ix2 (0 : Fin 1) p) := by
  show V c main_v1 (((cfg0.win 2).blk t).view.emb (ix2 (0 : Fin 1) q)) = V c main_v1 (ix2 (0 : Fin 1) p)
  refine congrArg (V c main_v1) (funext fun b => Fin.ext ?_)
  obtain ⟨-, -, -, -, -, e0, e1, -⟩ := blockIndex t
  match b with
  | ⟨0, _⟩ => show win0_2.index t (0 : Fin 2) * 1 + 1 * 0 = 0; omega
  | ⟨1, _⟩ => show win0_2.index t (1 : Fin 2) * 32768 + 1 * q.val = p.val; omega

/-! ## Output window 3: the kept weights -/

/-- What point t writes back is block t of the kept weights of the whole arrays. -/
theorem flushed3_eq (c : Dev nD) (t : Fin cfg0.N) :
    (dat0 V c).flushed 3 t
      = ((cfg0.win 3).blk t).view.read (Elt F) (keptW (F := F) (V c main_v3) (V c main_v5)) := by
  show (cfg0.win 3).cut (grid0.coords t) ((dat0 V c).after 3 t) = _
  rw [after0_3]
  unfold out0_3
  rw [View.canon_unit_zero zero2]
  simp only [View.ld_unit_zero (S := S8x32768) zero2, View.ld_unit_zero (S := S3x8x32768) zero3]
  funext j
  obtain ⟨k, q, rfl⟩ : ∃ (k : Fin 8) (q : Fin 32768), j = ix2 k q := ⟨j 0, j 1, eq_ix2 j⟩
  obtain ⟨-, -, -, -, -, -, -, e0, e1, -⟩ := blockIndex t
  have hq : q.val < 32768 := q.isLt
  have ht : t.val < 64 := Nat.lt_of_lt_of_eq t.isLt N_0
  obtain ⟨p, hp⟩ : ∃ p : Fin 2097152, p.val = t.val * 32768 + q.val := ⟨⟨t.val * 32768 + q.val, by omega⟩, rfl⟩
  have hemb : ((cfg0.win 3).blk t).view.emb (ix2 k q) = ix2 k p := by
    funext b; apply Fin.ext
    match b with
    | ⟨0, _⟩ => show win0_3.index t (0 : Fin 2) * 8 + 1 * k.val = k.val; omega
    | ⟨1, _⟩ => show win0_3.index t (1 : Fin 2) * 32768 + 1 * q.val = p.val; omega
  show k0_pay2 (k0_pay6 (iblk0 V c 1 t)) (k0_pay11 (iblk0 V c 0 t)) (ix2 k q)
    = keptW (V c main_v3) (V c main_v5) (((cfg0.win 3).blk t).view.emb (ix2 k q))
  rw [hemb]
  refine (keptW_block (iblk0 V c 0 t) (iblk0 V c 1 t) k q).trans ?_
  rw [coordBlock_apply V c t 0 k q p hp, coordBlock_apply V c t 1 k q p hp, coordBlock_apply V c t 2 k q p hp,
    weightBlock_apply V c t k q p hp]
  rfl

/-- An index of the array is in point t's block iff each coordinate is in the block's range on its axis. -/
theorem mem_blk3 (t : Fin cfg0.N) (i : S8x2097152.Idx) :
    i ∈ ((cfg0.win 3).blk t).view.set ↔ ∀ a : Fin 2, win0_3.index t a * S8x32768.size a ≤ (i a).val
      ∧ (i a).val < win0_3.index t a * S8x32768.size a + S8x32768.size a := by
  show i ∈ ((View.whole main_v6_0).slice (win0_3.rect t)).set ↔ _
  rw [View.set_slice_whole, Rect.mem_set_unit]
  exact Iff.rfl

/-- Every index of the array is in some point's block: point r / 32768 covers coordinate r of the point axis. -/
theorem cover3 (i : S8x2097152.Idx) :
    ∃ t : Fin cfg0.N, (cfg0.win 3).flush t = true ∧ i ∈ ((cfg0.win 3).blk t).view.set := by
  have hi0 : (i 0).val < 8 := (i 0).isLt
  have hi1 : (i 1).val < 2097152 := (i 1).isLt
  obtain ⟨t, ht⟩ : ∃ t : Fin cfg0.N, t.val = (i 1).val / 32768 :=
    ⟨⟨(i 1).val / 32768, Nat.lt_of_lt_of_eq (by omega : (i 1).val / 32768 < 64) N_0.symm⟩, rfl⟩
  obtain ⟨-, -, -, -, -, -, -, e0, e1, -⟩ := blockIndex t
  refine ⟨t, flush0_3 t, ?_⟩
  rw [mem_blk3]
  intro a
  match a with
  | ⟨0, _⟩ =>
    show win0_3.index t (0 : Fin 2) * 8 ≤ (i 0).val ∧ (i 0).val < win0_3.index t (0 : Fin 2) * 8 + 8
    omega
  | ⟨1, _⟩ =>
    show win0_3.index t (1 : Fin 2) * 32768 ≤ (i 1).val ∧ (i 1).val < win0_3.index t (1 : Fin 2) * 32768 + 32768
    omega

/-- The kept-weight array after the region. -/
theorem final3 (c : Dev nD) : (dat0 V c).arrAt 3 cfg0.N = keptW (F := F) (V c main_v3) (V c main_v5) :=
  (dat0 V c).arrAt_eq_of_cover 3 (keptW (F := F) (V c main_v3) (V c main_v5)) (fun t _ => flushed3_eq V c t) cover3

/-! ## Output window 4: the kept weights times the values -/

/-- What point t writes back is block t of the kept weight-times-value of the whole arrays. -/
theorem flushed4_eq (c : Dev nD) (t : Fin cfg0.N) :
    (dat0 V c).flushed 4 t
      = ((cfg0.win 4).blk t).view.read (Elt F) (keptWV (F := F) (V c main_v3) (V c main_v5) (V c main_v1)) := by
  show (cfg0.win 4).cut (grid0.coords t) ((dat0 V c).after 4 t) = _
  rw [after0_4]
  unfold out0_4
  rw [View.canon_unit_zero zero2]
  simp only [View.ld_unit_zero (S := S8x32768) zero2, View.ld_unit_zero (S := S1x32768) zero2,
    View.ld_unit_zero (S := S3x8x32768) zero3]
  funext j
  obtain ⟨k, q, rfl⟩ : ∃ (k : Fin 8) (q : Fin 32768), j = ix2 k q := ⟨j 0, j 1, eq_ix2 j⟩
  obtain ⟨-, -, -, -, -, -, -, -, -, e0, e1, -⟩ := blockIndex t
  have hq : q.val < 32768 := q.isLt
  have ht : t.val < 64 := Nat.lt_of_lt_of_eq t.isLt N_0
  obtain ⟨p, hp⟩ : ∃ p : Fin 2097152, p.val = t.val * 32768 + q.val := ⟨⟨t.val * 32768 + q.val, by omega⟩, rfl⟩
  have hemb : ((cfg0.win 4).blk t).view.emb (ix2 k q) = ix2 k p := by
    funext b; apply Fin.ext
    match b with
    | ⟨0, _⟩ => show win0_4.index t (0 : Fin 2) * 8 + 1 * k.val = k.val; omega
    | ⟨1, _⟩ => show win0_4.index t (1 : Fin 2) * 32768 + 1 * q.val = p.val; omega
  show k0_pay3 (k0_pay6 (iblk0 V c 1 t)) (k0_pay7 (iblk0 V c 2 t)) (k0_pay11 (iblk0 V c 0 t)) (ix2 k q)
    = keptWV (V c main_v3) (V c main_v5) (V c main_v1) (((cfg0.win 4).blk t).view.emb (ix2 k q))
  rw [hemb]
  refine (keptWV_block (iblk0 V c 0 t) (iblk0 V c 1 t) (iblk0 V c 2 t) k q).trans ?_
  rw [coordBlock_apply V c t 0 k q p hp, coordBlock_apply V c t 1 k q p hp, coordBlock_apply V c t 2 k q p hp,
    weightBlock_apply V c t k q p hp, valueBlock_apply V c t q p hp]
  rfl

/-- An index of the array is in point t's block iff each coordinate is in the block's range on its axis. -/
theorem mem_blk4 (t : Fin cfg0.N) (i : S8x2097152.Idx) :
    i ∈ ((cfg0.win 4).blk t).view.set ↔ ∀ a : Fin 2, win0_4.index t a * S8x32768.size a ≤ (i a).val
      ∧ (i a).val < win0_4.index t a * S8x32768.size a + S8x32768.size a := by
  show i ∈ ((View.whole main_v6_1).slice (win0_4.rect t)).set ↔ _
  rw [View.set_slice_whole, Rect.mem_set_unit]
  exact Iff.rfl

/-- Every index of the array is in some point's block: point r / 32768 covers coordinate r of the point axis. -/
theorem cover4 (i : S8x2097152.Idx) :
    ∃ t : Fin cfg0.N, (cfg0.win 4).flush t = true ∧ i ∈ ((cfg0.win 4).blk t).view.set := by
  have hi0 : (i 0).val < 8 := (i 0).isLt
  have hi1 : (i 1).val < 2097152 := (i 1).isLt
  obtain ⟨t, ht⟩ : ∃ t : Fin cfg0.N, t.val = (i 1).val / 32768 :=
    ⟨⟨(i 1).val / 32768, Nat.lt_of_lt_of_eq (by omega : (i 1).val / 32768 < 64) N_0.symm⟩, rfl⟩
  obtain ⟨-, -, -, -, -, -, -, -, -, e0, e1, -⟩ := blockIndex t
  refine ⟨t, flush0_4 t, ?_⟩
  rw [mem_blk4]
  intro a
  match a with
  | ⟨0, _⟩ =>
    show win0_4.index t (0 : Fin 2) * 8 ≤ (i 0).val ∧ (i 0).val < win0_4.index t (0 : Fin 2) * 8 + 8
    omega
  | ⟨1, _⟩ =>
    show win0_4.index t (1 : Fin 2) * 32768 ≤ (i 1).val ∧ (i 1).val < win0_4.index t (1 : Fin 2) * 32768 + 32768
    omega

/-- The kept weight-times-value array after the region. -/
theorem final4 (c : Dev nD) :
    (dat0 V c).arrAt 4 cfg0.N = keptWV (F := F) (V c main_v3) (V c main_v5) (V c main_v1) :=
  (dat0 V c).arrAt_eq_of_cover 4 (keptWV (F := F) (V c main_v3) (V c main_v5) (V c main_v1))
    (fun t _ => flushed4_eq V c t) cover4

/-! ## Output window 5: the voxel numbers -/

/-- What point t writes back is block t of the voxel numbers of the whole coordinate array. -/
theorem flushed5_eq (c : Dev nD) (t : Fin cfg0.N) :
    (dat0 V c).flushed 5 t = ((cfg0.win 5).blk t).view.read (Elt F) (voxels (V c main_v3)) := by
  show (cfg0.win 5).cut (grid0.coords t) ((dat0 V c).after 5 t) = _
  rw [after0_5]
  unfold out0_5
  rw [View.canon_unit_zero zero2]
  simp only [View.ld_unit_zero (S := S3x8x32768) zero3]
  funext j
  obtain ⟨k, q, rfl⟩ : ∃ (k : Fin 8) (q : Fin 32768), j = ix2 k q := ⟨j 0, j 1, eq_ix2 j⟩
  obtain ⟨-, -, -, -, -, -, -, -, -, -, -, e0, e1, -⟩ := blockIndex t
  have hq : q.val < 32768 := q.isLt
  have ht : t.val < 64 := Nat.lt_of_lt_of_eq t.isLt N_0
  obtain ⟨p, hp⟩ : ∃ p : Fin 2097152, p.val = t.val * 32768 + q.val := ⟨⟨t.val * 32768 + q.val, by omega⟩, rfl⟩
  have hemb : ((cfg0.win 5).blk t).view.emb (ix2 k q) = ix2 k p := by
    funext b; apply Fin.ext
    match b with
    | ⟨0, _⟩ => show win0_5.index t (0 : Fin 2) * 8 + 1 * k.val = k.val; omega
    | ⟨1, _⟩ => show win0_5.index t (1 : Fin 2) * 32768 + 1 * q.val = p.val; omega
  show k0_pay1 (k0_pay12 (iblk0 V c 0 t)) (k0_pay13 (iblk0 V c 0 t)) (k0_pay14 (iblk0 V c 0 t)) k0_pay15 (ix2 k q)
    = voxels (V c main_v3) (((cfg0.win 5).blk t).view.emb (ix2 k q))
  rw [hemb]
  refine (voxels_block (iblk0 V c 0 t) k q).trans ?_
  rw [coordBlock_apply V c t 0 k q p hp, coordBlock_apply V c t 1 k q p hp, coordBlock_apply V c t 2 k q p hp]
  rfl

/-- An index of the array is in point t's block iff each coordinate is in the block's range on its axis. -/
theorem mem_blk5 (t : Fin cfg0.N) (i : S8x2097152.Idx) :
    i ∈ ((cfg0.win 5).blk t).view.set ↔ ∀ a : Fin 2, win0_5.index t a * S8x32768.size a ≤ (i a).val
      ∧ (i a).val < win0_5.index t a * S8x32768.size a + S8x32768.size a := by
  show i ∈ ((View.whole main_v6_2).slice (win0_5.rect t)).set ↔ _
  rw [View.set_slice_whole, Rect.mem_set_unit]
  exact Iff.rfl

/-- Every index of the array is in some point's block: point r / 32768 covers coordinate r of the point axis. -/
theorem cover5 (i : S8x2097152.Idx) :
    ∃ t : Fin cfg0.N, (cfg0.win 5).flush t = true ∧ i ∈ ((cfg0.win 5).blk t).view.set := by
  have hi0 : (i 0).val < 8 := (i 0).isLt
  have hi1 : (i 1).val < 2097152 := (i 1).isLt
  obtain ⟨t, ht⟩ : ∃ t : Fin cfg0.N, t.val = (i 1).val / 32768 :=
    ⟨⟨(i 1).val / 32768, Nat.lt_of_lt_of_eq (by omega : (i 1).val / 32768 < 64) N_0.symm⟩, rfl⟩
  obtain ⟨-, -, -, -, -, -, -, -, -, -, -, e0, e1, -⟩ := blockIndex t
  refine ⟨t, flush0_5 t, ?_⟩
  rw [mem_blk5]
  intro a
  match a with
  | ⟨0, _⟩ =>
    show win0_5.index t (0 : Fin 2) * 8 ≤ (i 0).val ∧ (i 0).val < win0_5.index t (0 : Fin 2) * 8 + 8
    omega
  | ⟨1, _⟩ =>
    show win0_5.index t (1 : Fin 2) * 32768 ≤ (i 1).val ∧ (i 1).val < win0_5.index t (1 : Fin 2) * 32768 + 32768
    omega

/-- The voxel-number array after the region. -/
theorem final5 (c : Dev nD) : (dat0 V c).arrAt 5 cfg0.N = voxels (V c main_v3) :=
  (dat0 V c).arrAt_eq_of_cover 5 (voxels (V c main_v3)) (fun t _ => flushed5_eq V c t) cover5

/-! ## Output window 6: the hits -/

/-- What point t writes back is block t of the hits of the whole coordinate array. -/
theorem flushed6_eq (c : Dev nD) (t : Fin cfg0.N) :
    (dat0 V c).flushed 6 t = ((cfg0.win 6).blk t).view.read (Elt F) (hits (F := F) (V c main_v3)) := by
  show (cfg0.win 6).cut (grid0.coords t) ((dat0 V c).after 6 t) = _
  rw [after0_6]
  unfold out0_6
  rw [View.canon_unit_zero zero2]
  simp only [View.ld_unit_zero (S := S3x8x32768) zero3]
  funext j
  obtain ⟨k, q, rfl⟩ : ∃ (k : Fin 8) (q : Fin 32768), j = ix2 k q := ⟨j 0, j 1, eq_ix2 j⟩
  obtain ⟨-, -, -, -, -, -, -, -, -, -, -, -, -, e0, e1⟩ := blockIndex t
  have hq : q.val < 32768 := q.isLt
  have ht : t.val < 64 := Nat.lt_of_lt_of_eq t.isLt N_0
  obtain ⟨p, hp⟩ : ∃ p : Fin 2097152, p.val = t.val * 32768 + q.val := ⟨⟨t.val * 32768 + q.val, by omega⟩, rfl⟩
  have hemb : ((cfg0.win 6).blk t).view.emb (ix2 k q) = ix2 k p := by
    funext b; apply Fin.ext
    match b with
    | ⟨0, _⟩ => show win0_6.index t (0 : Fin 2) * 8 + 1 * k.val = k.val; omega
    | ⟨1, _⟩ => show win0_6.index t (1 : Fin 2) * 32768 + 1 * q.val = p.val; omega
  show k0_pay4 (F := F) (k0_pay11 (iblk0 V c 0 t)) (ix2 k q)
    = hits (F := F) (V c main_v3) (((cfg0.win 6).blk t).view.emb (ix2 k q))
  rw [hemb]
  refine (hits_block (iblk0 V c 0 t) k q).trans ?_
  rw [coordBlock_apply V c t 0 k q p hp, coordBlock_apply V c t 1 k q p hp, coordBlock_apply V c t 2 k q p hp]
  rfl

/-- An index of the array is in point t's block iff each coordinate is in the block's range on its axis. -/
theorem mem_blk6 (t : Fin cfg0.N) (i : S8x2097152.Idx) :
    i ∈ ((cfg0.win 6).blk t).view.set ↔ ∀ a : Fin 2, win0_6.index t a * S8x32768.size a ≤ (i a).val
      ∧ (i a).val < win0_6.index t a * S8x32768.size a + S8x32768.size a := by
  show i ∈ ((View.whole main_v6_3).slice (win0_6.rect t)).set ↔ _
  rw [View.set_slice_whole, Rect.mem_set_unit]
  exact Iff.rfl

/-- Every index of the array is in some point's block: point r / 32768 covers coordinate r of the point axis. -/
theorem cover6 (i : S8x2097152.Idx) :
    ∃ t : Fin cfg0.N, (cfg0.win 6).flush t = true ∧ i ∈ ((cfg0.win 6).blk t).view.set := by
  have hi0 : (i 0).val < 8 := (i 0).isLt
  have hi1 : (i 1).val < 2097152 := (i 1).isLt
  obtain ⟨t, ht⟩ : ∃ t : Fin cfg0.N, t.val = (i 1).val / 32768 :=
    ⟨⟨(i 1).val / 32768, Nat.lt_of_lt_of_eq (by omega : (i 1).val / 32768 < 64) N_0.symm⟩, rfl⟩
  obtain ⟨-, -, -, -, -, -, -, -, -, -, -, -, -, e0, e1⟩ := blockIndex t
  refine ⟨t, flush0_6 t, ?_⟩
  rw [mem_blk6]
  intro a
  match a with
  | ⟨0, _⟩ =>
    show win0_6.index t (0 : Fin 2) * 8 ≤ (i 0).val ∧ (i 0).val < win0_6.index t (0 : Fin 2) * 8 + 8
    omega
  | ⟨1, _⟩ =>
    show win0_6.index t (1 : Fin 2) * 32768 ≤ (i 1).val ∧ (i 1).val < win0_6.index t (1 : Fin 2) * 32768 + 32768
    omega

/-- The hit array after the region. -/
theorem final6 (c : Dev nD) : (dat0 V c).arrAt 6 cfg0.N = hits (F := F) (V c main_v3) :=
  (dat0 V c).arrAt_eq_of_cover 6 (hits (F := F) (V c main_v3)) (fun t _ => flushed6_eq V c t) cover6

end Arrays

end Cert.KernelIdeal.PrepValue

end
-- ==== Proof.CombineValue.lean ====
/-
  The combine pass, from blocks to the volume.

  The pass walks the 256³ volume in 32 slabs of 8 planes: at grid point t every window holds slab t, that is
  voxels (8t + a, y, z) for a < 8. Its body is pointwise: a voxel's new value and new weight are functions of the five
  numbers the input volumes hold at that same voxel. So what point t writes back is slab t of one whole-volume
  function of the inputs (Spec.newValues, Spec.newWeights), and since the 32 slabs fill the volume, the output volumes
  after the pass are those functions.
-/
import proofs.«162537_j82463372083721_1_alg».proof.Proof.Gen.KernelIdeal.Frame
import proofs.«162537_j82463372083721_1_alg».proof.Proof.Spec
import Idealize.ShloMosaic.Lib.Pipeline.Value
import Idealize.ShloMosaic.Lib.ValueIdx

set_option maxRecDepth 16384

noncomputable section

namespace Cert.KernelIdeal.CombineValue

open Cert.KernelIdeal Cert.KernelIdeal.Gen Cert.Spec Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The body, voxel by voxel -/

theorem zero_offsets : (![0, 0, 0] : Fin 3 → Nat) = fun _ => 0 := funext fun a => by fin_cases a <;> rfl

/-- The body's value payload at a voxel of the slab: the weighted average where the voxel was hit, the old value elsewhere. -/
theorem value_payload_apply (vv wv wc vc cnt : Vec F S8x256x256 .f32) (j : S8x256x256.Idx) :
    k1_pay3 vv wv wc vc cnt j = newValue (vv j) (wv j) (wc j) (vc j) (cnt j) := by
  unfold k1_pay3 k1_pay2 k1_pay1
  simp only [shapeCast_self]
  rfl

/-- The body's weight payload at a voxel of the slab: the summed weight where the voxel was hit, the old weight elsewhere. -/
theorem weight_payload_apply (wv wc cnt : Vec F S8x256x256 .f32) (j : S8x256x256.Idx) :
    k1_pay4 wv wc cnt j = newWeight (wv j) (wc j) (cnt j) := by
  unfold k1_pay4 k1_pay2 k1_pay1
  simp only [shapeCast_self]
  rfl

/-! ## Where a slab sits in the volume -/

/-- The printed index maps, decided over the 32 grid points: every window's block index at point t is (t, 0, 0). -/
theorem slab_index : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0)
    ∧ (win1_6.index t (0 : Fin 3) = t.val ∧ win1_6.index t (1 : Fin 3) = 0 ∧ win1_6.index t (2 : Fin 3) = 0) :=
  (by decide +kernel : ∀ t : Fin grid1.N, _)

/-- An element of block t of window 0 sits in the volume at slab t, row for row. -/
theorem emb0 (t : Fin cfg1.N) (j : S8x256x256.Idx) (i : S256x256x256.Idx)
    (h0 : (i 0).val = t.val * 8 + (j 0).val) (h1 : (i 1).val = (j 1).val) (h2 : (i 2).val = (j 2).val) :
    ((cfg1.win 0).blk t).view.emb j = i := by
  obtain ⟨q0, q1, q2, q3, q4, q5, q6⟩ := slab_index t
  obtain ⟨e0, e1, e2⟩ := q0
  funext a; apply Fin.ext
  match a with
  | ⟨0, _⟩ => show win1_0.index t (0 : Fin 3) * 8 + 1 * (j 0).val = (i 0).val; omega
  | ⟨1, _⟩ => show win1_0.index t (1 : Fin 3) * 256 + 1 * (j 1).val = (i 1).val; omega
  | ⟨2, _⟩ => show win1_0.index t (2 : Fin 3) * 256 + 1 * (j 2).val = (i 2).val; omega

/-- An element of block t of window 1 sits in the volume at slab t, row for row. -/
theorem emb1 (t : Fin cfg1.N) (j : S8x256x256.Idx) (i : S256x256x256.Idx)
    (h0 : (i 0).val = t.val * 8 + (j 0).val) (h1 : (i 1).val = (j 1).val) (h2 : (i 2).val = (j 2).val) :
    ((cfg1.win 1).blk t).view.emb j = i := by
  obtain ⟨q0, q1, q2, q3, q4, q5, q6⟩ := slab_index t
  obtain ⟨e0, e1, e2⟩ := q1
  funext a; apply Fin.ext
  match a with
  | ⟨0, _⟩ => show win1_1.index t (0 : Fin 3) * 8 + 1 * (j 0).val = (i 0).val; omega
  | ⟨1, _⟩ => show win1_1.index t (1 : Fin 3) * 256 + 1 * (j 1).val = (i 1).val; omega
  | ⟨2, _⟩ => show win1_1.index t (2 : Fin 3) * 256 + 1 * (j 2).val = (i 2).val; omega

/-- An element of block t of window 2 sits in the volume at slab t, row for row. -/
theorem emb2 (t : Fin cfg1.N) (j : S8x256x256.Idx) (i : S256x256x256.Idx)
    (h0 : (i 0).val = t.val * 8 + (j 0).val) (h1 : (i 1).val = (j 1).val) (h2 : (i 2).val = (j 2).val) :
    ((cfg1.win 2).blk t).view.emb j = i := by
  obtain ⟨q0, q1, q2, q3, q4, q5, q6⟩ := slab_index t
  obtain ⟨e0, e1, e2⟩ := q2
  funext a; apply Fin.ext
  match a with
  | ⟨0, _⟩ => show win1_2.index t (0 : Fin 3) * 8 + 1 * (j 0).val = (i 0).val; omega
  | ⟨1, _⟩ => show win1_2.index t (1 : Fin 3) * 256 + 1 * (j 1).val = (i 1).val; omega
  | ⟨2, _⟩ => show win1_2.index t (2 : Fin 3) * 256 + 1 * (j 2).val = (i 2).val; omega

/-- An element of block t of window 3 sits in the volume at slab t, row for row. -/
theorem emb3 (t : Fin cfg1.N) (j : S8x256x256.Idx) (i : S256x256x256.Idx)
    (h0 : (i 0).val = t.val * 8 + (j 0).val) (h1 : (i 1).val = (j 1).val) (h2 : (i 2).val = (j 2).val) :
    ((cfg1.win 3).blk t).view.emb j = i := by
  obtain ⟨q0, q1, q2, q3, q4, q5, q6⟩ := slab_index t
  obtain ⟨e0, e1, e2⟩ := q3
  funext a; apply Fin.ext
  match a with
  | ⟨0, _⟩ => show win1_3.index t (0 : Fin 3) * 8 + 1 * (j 0).val = (i 0).val; omega
  | ⟨1, _⟩ => show win1_3.index t (1 : Fin 3) * 256 + 1 * (j 1).val = (i 1).val; omega
  | ⟨2, _⟩ => show win1_3.index t (2 : Fin 3) * 256 + 1 * (j 2).val = (i 2).val; omega

/-- An element of block t of window 4 sits in the volume at slab t, row for row. -/
theorem emb4 (t : Fin cfg1.N) (j : S8x256x256.Idx) (i : S256x256x256.Idx)
    (h0 : (i 0).val = t.val * 8 + (j 0).val) (h1 : (i 1).val = (j 1).val) (h2 : (i 2).val = (j 2).val) :
    ((cfg1.win 4).blk t).view.emb j = i := by
  obtain ⟨q0, q1, q2, q3, q4, q5, q6⟩ := slab_index t
  obtain ⟨e0, e1, e2⟩ := q4
  funext a; apply Fin.ext
  match a with
  | ⟨0, _⟩ => show win1_4.index t (0 : Fin 3) * 8 + 1 * (j 0).val = (i 0).val; omega
  | ⟨1, _⟩ => show win1_4.index t (1 : Fin 3) * 256 + 1 * (j 1).val = (i 1).val; omega
  | ⟨2, _⟩ => show win1_4.index t (2 : Fin 3) * 256 + 1 * (j 2).val = (i 2).val; omega

/-- An element of block t of window 5 sits in the volume at slab t, row for row. -/
theorem emb5 (t : Fin cfg1.N) (j : S8x256x256.Idx) (i : S256x256x256.Idx)
    (h0 : (i 0).val = t.val * 8 + (j 0).val) (h1 : (i 1).val = (j 1).val) (h2 : (i 2).val = (j 2).val) :
    ((cfg1.win 5).blk t).view.emb j = i := by
  obtain ⟨q0, q1, q2, q3, q4, q5, q6⟩ := slab_index t
  obtain ⟨e0, e1, e2⟩ := q5
  funext a; apply Fin.ext
  match a with
  | ⟨0, _⟩ => show win1_5.index t (0 : Fin 3) * 8 + 1 * (j 0).val = (i 0).val; omega
  | ⟨1, _⟩ => show win1_5.index t (1 : Fin 3) * 256 + 1 * (j 1).val = (i 1).val; omega
  | ⟨2, _⟩ => show win1_5.index t (2 : Fin 3) * 256 + 1 * (j 2).val = (i 2).val; omega

/-- An element of block t of window 6 sits in the volume at slab t, row for row. -/
theorem emb6 (t : Fin cfg1.N) (j : S8x256x256.Idx) (i : S256x256x256.Idx)
    (h0 : (i 0).val = t.val * 8 + (j 0).val) (h1 : (i 1).val = (j 1).val) (h2 : (i 2).val = (j 2).val) :
    ((cfg1.win 6).blk t).view.emb j = i := by
  obtain ⟨q0, q1, q2, q3, q4, q5, q6⟩ := slab_index t
  obtain ⟨e0, e1, e2⟩ := q6
  funext a; apply Fin.ext
  match a with
  | ⟨0, _⟩ => show win1_6.index t (0 : Fin 3) * 8 + 1 * (j 0).val = (i 0).val; omega
  | ⟨1, _⟩ => show win1_6.index t (1 : Fin 3) * 256 + 1 * (j 1).val = (i 1).val; omega
  | ⟨2, _⟩ => show win1_6.index t (2 : Fin 3) * 256 + 1 * (j 2).val = (i 2).val; omega

/-- Voxel j of slab t, as a voxel of the volume. -/
def slabVoxel (t : Fin cfg1.N) (j : S8x256x256.Idx) : S256x256x256.Idx :=
  ValueIdx.ix3 ⟨t.val * 8 + (j 0).val, by
    have ht : t.val < 32 := t.isLt
    have hj : (j 0).val < 8 := (j 0).isLt
    omega⟩ (j 1) (j 2)

/-! ## What a point writes back -/

/-- Point t writes back slab t of the new values. -/
theorem flushed5_eq (c : Dev nD) (t : Fin cfg1.N) :
    (dat1 V c).flushed 5 t = ((cfg1.win 5).blk t).view.read (Elt F)
      (newValues (F := F) (V c main_arg3) (V c main_arg4) (V c main_v17) (V c main_v26) (V c main_v35)) := by
  show (cfg1.win 5).cut (grid1.coords t) ((dat1 V c).after 5 t) = _
  rw [after1_5]
  unfold out1_5
  rw [View.canon_unit_zero zero_offsets]
  simp only [View.ld_unit_zero (S := S8x256x256) zero_offsets]
  funext j
  refine (value_payload_apply _ _ _ _ _ j).trans ?_
  show newValue (V c main_arg3 (((cfg1.win 0).blk t).view.emb j)) (V c main_arg4 (((cfg1.win 1).blk t).view.emb j))
      (V c main_v17 (((cfg1.win 2).blk t).view.emb j)) (V c main_v26 (((cfg1.win 3).blk t).view.emb j))
      (V c main_v35 (((cfg1.win 4).blk t).view.emb j))
    = newValue (V c main_arg3 (((cfg1.win 5).blk t).view.emb j)) (V c main_arg4 (((cfg1.win 5).blk t).view.emb j))
      (V c main_v17 (((cfg1.win 5).blk t).view.emb j)) (V c main_v26 (((cfg1.win 5).blk t).view.emb j))
      (V c main_v35 (((cfg1.win 5).blk t).view.emb j))
  rw [emb0 t j (slabVoxel t j) rfl rfl rfl, emb1 t j (slabVoxel t j) rfl rfl rfl, emb2 t j (slabVoxel t j) rfl rfl rfl,
    emb3 t j (slabVoxel t j) rfl rfl rfl, emb4 t j (slabVoxel t j) rfl rfl rfl, emb5 t j (slabVoxel t j) rfl rfl rfl]

/-- Point t writes back slab t of the new weights. -/
theorem flushed6_eq (c : Dev nD) (t : Fin cfg1.N) :
    (dat1 V c).flushed 6 t = ((cfg1.win 6).blk t).view.read (Elt F)
      (newWeights (F := F) (V c main_arg4) (V c main_v17) (V c main_v35)) := by
  show (cfg1.win 6).cut (grid1.coords t) ((dat1 V c).after 6 t) = _
  rw [after1_6]
  unfold out1_6
  rw [View.canon_unit_zero zero_offsets]
  simp only [View.ld_unit_zero (S := S8x256x256) zero_offsets]
  funext j
  refine (weight_payload_apply _ _ _ j).trans ?_
  show newWeight (V c main_arg4 (((cfg1.win 1).blk t).view.emb j)) (V c main_v17 (((cfg1.win 2).blk t).view.emb j))
      (V c main_v35 (((cfg1.win 4).blk t).view.emb j))
    = newWeight (V c main_arg4 (((cfg1.win 6).blk t).view.emb j)) (V c main_v17 (((cfg1.win 6).blk t).view.emb j))
      (V c main_v35 (((cfg1.win 6).blk t).view.emb j))
  rw [emb1 t j (slabVoxel t j) rfl rfl rfl, emb2 t j (slabVoxel t j) rfl rfl rfl,
    emb4 t j (slabVoxel t j) rfl rfl rfl, emb6 t j (slabVoxel t j) rfl rfl rfl]

/-! ## The slabs fill the volume -/

/-- An index of the volume is in point t's block of window 5 iff each coordinate is in the block's range on its axis. -/
theorem mem_blk5 (t : Fin cfg1.N) (i : S256x256x256.Idx) :
    i ∈ ((cfg1.win 5).blk t).view.set ↔ ∀ a : Fin 3, win1_5.index t a * S8x256x256.size a ≤ (i a).val ∧ (i a).val < win1_5.index t a * S8x256x256.size a + S8x256x256.size a := by
  show i ∈ ((View.whole main_v36_0).slice (win1_5.rect t)).set ↔ _
  rw [View.set_slice_whole, Rect.mem_set_unit]
  exact Iff.rfl

/-- The 32 slabs of window 5 fill the volume: voxel (x, y, z) lies in slab x / 8. -/
theorem cover5 (i : S256x256x256.Idx) :
    ∃ t : Fin cfg1.N, (cfg1.win 5).flush t = true ∧ i ∈ ((cfg1.win 5).blk t).view.set := by
  have hi0 : (i 0).val < 256 := (i 0).isLt
  have hi1 : (i 1).val < 256 := (i 1).isLt
  have hi2 : (i 2).val < 256 := (i 2).isLt
  have hslab : (i 0).val / 8 < 32 := by omega
  refine ⟨⟨(i 0).val / 8, hslab⟩, flush1_5 _, ?_⟩
  rw [mem_blk5]
  obtain ⟨-, -, -, -, -, q5, q6⟩ := slab_index ⟨(i 0).val / 8, hslab⟩
  obtain ⟨e0, e1, e2⟩ := q5
  intro a
  match a with
  | ⟨0, _⟩ =>
    show win1_5.index _ (0 : Fin 3) * 8 ≤ (i 0).val ∧ (i 0).val < win1_5.index _ (0 : Fin 3) * 8 + 8
    rw [e0]
    show (i 0).val / 8 * 8 ≤ (i 0).val ∧ (i 0).val < (i 0).val / 8 * 8 + 8
    omega
  | ⟨1, _⟩ => show win1_5.index _ (1 : Fin 3) * 256 ≤ (i 1).val ∧ (i 1).val < win1_5.index _ (1 : Fin 3) * 256 + 256; omega
  | ⟨2, _⟩ => show win1_5.index _ (2 : Fin 3) * 256 ≤ (i 2).val ∧ (i 2).val < win1_5.index _ (2 : Fin 3) * 256 + 256; omega

/-- An index of the volume is in point t's block of window 6 iff each coordinate is in the block's range on its axis. -/
theorem mem_blk6 (t : Fin cfg1.N) (i : S256x256x256.Idx) :
    i ∈ ((cfg1.win 6).blk t).view.set ↔ ∀ a : Fin 3, win1_6.index t a * S8x256x256.size a ≤ (i a).val ∧ (i a).val < win1_6.index t a * S8x256x256.size a + S8x256x256.size a := by
  show i ∈ ((View.whole main_v36_1).slice (win1_6.rect t)).set ↔ _
  rw [View.set_slice_whole, Rect.mem_set_unit]
  exact Iff.rfl

/-- The 32 slabs of window 6 fill the volume: voxel (x, y, z) lies in slab x / 8. -/
theorem cover6 (i : S256x256x256.Idx) :
    ∃ t : Fin cfg1.N, (cfg1.win 6).flush t = true ∧ i ∈ ((cfg1.win 6).blk t).view.set := by
  have hi0 : (i 0).val < 256 := (i 0).isLt
  have hi1 : (i 1).val < 256 := (i 1).isLt
  have hi2 : (i 2).val < 256 := (i 2).isLt
  have hslab : (i 0).val / 8 < 32 := by omega
  refine ⟨⟨(i 0).val / 8, hslab⟩, flush1_6 _, ?_⟩
  rw [mem_blk6]
  obtain ⟨-, -, -, -, -, q5, q6⟩ := slab_index ⟨(i 0).val / 8, hslab⟩
  obtain ⟨e0, e1, e2⟩ := q6
  intro a
  match a with
  | ⟨0, _⟩ =>
    show win1_6.index _ (0 : Fin 3) * 8 ≤ (i 0).val ∧ (i 0).val < win1_6.index _ (0 : Fin 3) * 8 + 8
    rw [e0]
    show (i 0).val / 8 * 8 ≤ (i 0).val ∧ (i 0).val < (i 0).val / 8 * 8 + 8
    omega
  | ⟨1, _⟩ => show win1_6.index _ (1 : Fin 3) * 256 ≤ (i 1).val ∧ (i 1).val < win1_6.index _ (1 : Fin 3) * 256 + 256; omega
  | ⟨2, _⟩ => show win1_6.index _ (2 : Fin 3) * 256 ≤ (i 2).val ∧ (i 2).val < win1_6.index _ (2 : Fin 3) * 256 + 256; omega

/-! ## The volumes after the pass -/

/-- The value volume after the pass: every voxel's new value. -/
theorem final5 (c : Dev nD) : (dat1 V c).arrAt 5 cfg1.N
    = newValues (F := F) (V c main_arg3) (V c main_arg4) (V c main_v17) (V c main_v26) (V c main_v35) :=
  (dat1 V c).arrAt_eq_of_cover 5 _ (fun t _ => flushed5_eq V c t) cover5

/-- The weight volume after the pass: every voxel's new weight. -/
theorem final6 (c : Dev nD) : (dat1 V c).arrAt 6 cfg1.N
    = newWeights (F := F) (V c main_arg4) (V c main_v17) (V c main_v35) :=
  (dat1 V c).arrAt_eq_of_cover 6 _ (fun t _ => flushed6_eq V c t) cover6

end Cert.KernelIdeal.CombineValue

end
-- ==== Proof.KernelValue.lean ====
/-
  The kernel's two results as functions of its arguments.

  Chaining the two regions through the host operations between them: the first region leaves, per corner, the kept weight,
  the kept weight·value product, the voxel number and the hit; each float array is scatter-added into a zero volume at the
  voxel numbers; the second region combines the old volumes with the three scattered ones voxel by voxel.
-/
import proofs.«162537_j82463372083721_1_alg».proof.Proof.KernelRun
import proofs.«162537_j82463372083721_1_alg».proof.Proof.KernelHost
import proofs.«162537_j82463372083721_1_alg».proof.Proof.PrepValue
import proofs.«162537_j82463372083721_1_alg».proof.Proof.CombineValue
import proofs.«162537_j82463372083721_1_alg».proof.Proof.Spec

set_option maxRecDepth 16384

noncomputable section

namespace Cert.KernelIdeal.Result

open Cert.KernelIdeal Cert.KernelIdeal.Gen Cert.KernelIdeal.HostValue Cert.Spec
open Idealize.ShloMosaic Idealize.ShloMosaic.TcCoe Idealize.SL.Sem

variable {F : FTy → Type} [FloatOps F]

/-! ## The corner data in the kernel's layout, from the three inputs -/

/-- The coordinate planes [3, 8, P] of a coordinate input. -/
def planes (a1 : (⟨S1x65536x32x8x3, .i32⟩ : BufTy).Contents (Elt F)) : IVec S3x8x2097152 32 :=
  transpose S3x8x2097152 [2, 1, 0] (shapeCast S2097152x8x3 a1 shapeCasts_S1x65536x32x8x3_S2097152x8x3)
    transposes_S2097152x8x3_S3x8x2097152_2_1_0

/-- The weights [8, P] of a weight input. -/
def weightRows (a2 : (⟨S1x65536x32x8, .f32⟩ : BufTy).Contents (Elt F)) : FVec F S8x2097152 .f32 :=
  transpose S8x2097152 [1, 0] (shapeCast S2097152x8 a2 shapeCasts_S1x65536x32x8_S2097152x8) transposes_S2097152x8_S8x2097152_1_0

/-- The values as a row [1, P]. -/
def valueRow (a0 : (⟨S1x65536x32, .f32⟩ : BufTy).Contents (Elt F)) : FVec F S1x2097152 .f32 :=
  shapeCast S1x2097152 (shapeCast S2097152 a0 shapeCasts_S1x65536x32_S2097152) shapeCasts_S2097152_S1x2097152

/-- The new values, from the five arguments. -/
def newValuesOf (a0 : (⟨S1x65536x32, .f32⟩ : BufTy).Contents (Elt F)) (a1 : (⟨S1x65536x32x8x3, .i32⟩ : BufTy).Contents (Elt F))
    (a2 : (⟨S1x65536x32x8, .f32⟩ : BufTy).Contents (Elt F)) (a3 a4 : (⟨S256x256x256, .f32⟩ : BufTy).Contents (Elt F)) :
    FVec F S256x256x256 .f32 :=
  newValues (F := F) a3 a4
    (scatterVol (voxels (planes (F := F) a1)) (keptW (F := F) (planes (F := F) a1) (weightRows a2)))
    (scatterVol (voxels (planes (F := F) a1)) (keptWV (F := F) (planes (F := F) a1) (weightRows a2) (valueRow a0)))
    (scatterVol (voxels (planes (F := F) a1)) (hits (F := F) (planes (F := F) a1)))

/-- The new weights, from three of the arguments. -/
def newWeightsOf (a1 : (⟨S1x65536x32x8x3, .i32⟩ : BufTy).Contents (Elt F))
    (a2 : (⟨S1x65536x32x8, .f32⟩ : BufTy).Contents (Elt F)) (a4 : (⟨S256x256x256, .f32⟩ : BufTy).Contents (Elt F)) :
    FVec F S256x256x256 .f32 :=
  newWeights (F := F) a4
    (scatterVol (voxels (planes (F := F) a1)) (keptW (F := F) (planes (F := F) a1) (weightRows a2)))
    (scatterVol (voxels (planes (F := F) a1)) (hits (F := F) (planes (F := F) a1)))

variable (m : (ℓ : Loc nD τ sig) → Buf (Elt F) ℓ) (ρ : Dev nD → PrngReg)

/-! ## What the first region leaves -/

theorem exit0_keptW (c : Dev nD) : W2 m ρ c (Proc.devRef .tc main_v6_0) =
    keptW (F := F) (planes (m ((c : Thread nD τ).loc main_arg1))) (weightRows (m ((c : Thread nD τ).loc main_arg2))) :=
  (W2_arr m ρ c 3).trans ((Cert.KernelIdeal.PrepValue.final3 (V1 m ρ) c).trans (by
    rw [entry0_planes, entry0_weights]; rfl))

theorem exit0_keptWV (c : Dev nD) : W2 m ρ c (Proc.devRef .tc main_v6_1) =
    keptWV (F := F) (planes (m ((c : Thread nD τ).loc main_arg1))) (weightRows (m ((c : Thread nD τ).loc main_arg2)))
      (valueRow (m ((c : Thread nD τ).loc main_arg0))) :=
  (W2_arr m ρ c 4).trans ((Cert.KernelIdeal.PrepValue.final4 (V1 m ρ) c).trans (by
    rw [entry0_planes, entry0_weights, entry0_values]; rfl))

theorem exit0_voxels (c : Dev nD) : W2 m ρ c (Proc.devRef .tc main_v6_2) =
    voxels (planes (F := F) (m ((c : Thread nD τ).loc main_arg1))) :=
  (W2_arr m ρ c 5).trans ((Cert.KernelIdeal.PrepValue.final5 (V1 m ρ) c).trans (by
    rw [entry0_planes]; rfl))

theorem exit0_hits (c : Dev nD) : W2 m ρ c (Proc.devRef .tc main_v6_3) =
    hits (F := F) (planes (F := F) (m ((c : Thread nD τ).loc main_arg1))) :=
  (W2_arr m ρ c 6).trans ((Cert.KernelIdeal.PrepValue.final6 (V1 m ρ) c).trans (by
    rw [entry0_planes]; rfl))

/-! ## The two results -/

theorem result0 (c : Dev nD) : W4 m ρ c (Proc.devRef .tc main_v36_0) =
    newValuesOf (m ((c : Thread nD τ).loc main_arg0)) (m ((c : Thread nD τ).loc main_arg1)) (m ((c : Thread nD τ).loc main_arg2))
      (m ((c : Thread nD τ).loc main_arg3)) (m ((c : Thread nD τ).loc main_arg4)) :=
  (W4_arr m ρ c 5).trans ((Cert.KernelIdeal.CombineValue.final5 (V3 m ρ) c).trans (by
    rw [entry1_main_arg3, entry1_main_arg4, entry1_wsum, entry1_wvsum, entry1_count,
      exit0_keptW, exit0_keptWV, exit0_voxels, exit0_hits]; rfl))

theorem result1 (c : Dev nD) : W4 m ρ c (Proc.devRef .tc main_v36_1) =
    newWeightsOf (m ((c : Thread nD τ).loc main_arg1)) (m ((c : Thread nD τ).loc main_arg2)) (m ((c : Thread nD τ).loc main_arg4)) :=
  (W4_arr m ρ c 6).trans ((Cert.KernelIdeal.CombineValue.final6 (V3 m ρ) c).trans (by
    rw [entry1_main_arg4, entry1_wsum, entry1_count, exit0_keptW, exit0_voxels, exit0_hits]; rfl))

/-- Every weakly fair execution of @main terminates, nothing faulting, with the two results at the new values and the new weights
    of the arguments, and the arguments unchanged. -/
theorem run : θ_run defs (onTc (τ := τ) (main (F := F))) ⟨m, fun _ => 0, ρ⟩ (fun r => ∀ c : Dev nD,
      r.2.mem ((c.tc : Thread nD τ).loc main_v36_0) =
        newValuesOf (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v36_1) =
        newWeightsOf (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result0 m ρ c), (h c).2.1.trans (result1 m ρ c), (h c).2.2⟩) (run_results m ρ)

end Cert.KernelIdeal.Result

end
-- ==== Proof.Layout.lean ====
/-
  The two orders in which the 16777216 corners are laid out flat, and the input re-layouts read at an index.

  Corner k (of 8) of point p (of 2097152) has the POINT-MAJOR number 8·p + k (the order of the inputs, and of every array the
  reference builds) and the CORNER-MAJOR number 2097152·k + p (the order of an [8, 2097152] array flattened, which is how the
  kernel hands its per-corner arrays to the scatter). `cornerMajor` sends the first number to the second; it is a bijection of
  the 16777216 flat positions.

  All re-layouts are reshapes, transposes and unit-axis broadcasts, and a reshape keeps row-major positions, so each fact
  below compares two row-major positions: (8·p + k)·3 + a for a coordinate, 8·p + k for a weight, p for a value.
-/
import Idealize.ShloMosaic.Lib.Pipeline.Value
import Idealize.ShloMosaic.Lib.ValueIdx

namespace Cert.Layout

open Idealize.ShloMosaic Idealize.ShloMosaic.ValueIdx

variable {α : Type}

/-- Two reshapes of one array agree wherever their row-major positions agree. -/
theorem shapeCast_eq_shapeCast {s t₁ t₂ : Shape} (x : s.Idx → α) (h₁ : s.ShapeCasts t₁) (h₂ : s.ShapeCasts t₂)
    (j₁ : t₁.Idx) (j₂ : t₂.Idx) (e : (t₁.rowMajor j₁).val = (t₂.rowMajor j₂).val) :
    shapeCast t₁ x h₁ j₁ = shapeCast t₂ x h₂ j₂ :=
  shapeCast_apply x h₁ j₁ (Shape.reshapeEquiv h₂ j₂) ((Shape.rowMajor_reshapeEquiv h₂ j₂).trans e.symm)

/-- The point of a point-major corner number. -/
def pointOf (j : Fin 16777216) : Fin 2097152 := ⟨j.val / 8, by have := j.isLt; omega⟩
/-- The corner of a point-major corner number. -/
def cornerOf (j : Fin 16777216) : Fin 8 := ⟨j.val % 8, by omega⟩
/-- Point-major to corner-major. -/
def toCornerMajor (j : Fin 16777216) : Fin 16777216 := ⟨j.val % 8 * 2097152 + j.val / 8, by have := j.isLt; omega⟩
/-- Corner-major to point-major. -/
def toPointMajor (n : Fin 16777216) : Fin 16777216 := ⟨n.val % 2097152 * 8 + n.val / 2097152, by have := n.isLt; omega⟩

/-- The change of flat order, as a bijection of the flat index set. -/
def cornerMajor : (⟨1, ![16777216]⟩ : Shape).Idx ≃ (⟨1, ![16777216]⟩ : Shape).Idx where
  toFun j := ix1 (toCornerMajor (j 0))
  invFun n := ix1 (toPointMajor (n 0))
  left_inv j := by
    rw [eq_ix1 j]
    refine congrArg ix1 (Fin.ext ?_)
    show ((j 0).val % 8 * 2097152 + (j 0).val / 8) % 2097152 * 8 + ((j 0).val % 8 * 2097152 + (j 0).val / 8) / 2097152 = (j 0).val
    have hj : (j 0).val < 16777216 := (j 0).isLt
    omega
  right_inv n := by
    rw [eq_ix1 n]
    refine congrArg ix1 (Fin.ext ?_)
    show ((n 0).val % 2097152 * 8 + (n 0).val / 2097152) % 8 * 2097152 + ((n 0).val % 2097152 * 8 + (n 0).val / 2097152) / 8 = (n 0).val
    have hn : (n 0).val < 16777216 := (n 0).isLt
    omega

theorem cornerMajor_apply (j : Fin 16777216) : cornerMajor (ix1 j) = ix1 (toCornerMajor j) := rfl

/-- An [8, P] array flattened, read at a corner-major number, is the array at (corner, point). -/
theorem flat_apply (y : (⟨2, ![8, 2097152]⟩ : Shape).Idx → α) (h : (⟨2, ![8, 2097152]⟩ : Shape).ShapeCasts ⟨1, ![16777216]⟩)
    (j : Fin 16777216) : shapeCast ⟨1, ![16777216]⟩ y h (ix1 (toCornerMajor j)) = y (ix2 (cornerOf j) (pointOf j)) :=
  shapeCast_apply y h _ _ (by
    rw [Shape.rowMajor_val_two, Shape.rowMajor_val_one]
    show j.val % 8 * 2097152 + j.val / 8 = j.val % 8 * 2097152 + j.val / 8
    rfl)

/-- The coordinate planes [3, 8, P] (the inputs reshaped to [P, 8, 3] and the axes reversed) at (a, corner, point) are the inputs
    reshaped to [16777216, 3] at (point-major number, a). -/
theorem planes_apply (x : (⟨5, ![1, 65536, 32, 8, 3]⟩ : Shape).Idx → α)
    (h₁ : (⟨5, ![1, 65536, 32, 8, 3]⟩ : Shape).ShapeCasts ⟨3, ![2097152, 8, 3]⟩)
    (h₂ : (⟨3, ![2097152, 8, 3]⟩ : Shape).Transposes [2, 1, 0] ⟨3, ![3, 8, 2097152]⟩)
    (h₃ : (⟨5, ![1, 65536, 32, 8, 3]⟩ : Shape).ShapeCasts ⟨2, ![16777216, 3]⟩)
    (j : Fin 16777216) (a : Fin 3) :
    transpose ⟨3, ![3, 8, 2097152]⟩ [2, 1, 0] (shapeCast ⟨3, ![2097152, 8, 3]⟩ x h₁) h₂ (ix3 a (cornerOf j) (pointOf j))
      = shapeCast ⟨2, ![16777216, 3]⟩ x h₃ (ix2 j a) := by
  refine (transpose_apply [2, 1, 0] _ h₂ (ix3 a (cornerOf j) (pointOf j)) (ix3 (pointOf j) (cornerOf j) a) (fun b => ?_)).trans
    (shapeCast_eq_shapeCast x h₁ h₃ _ _ ?_)
  · match b with
    | ⟨0, _⟩ => rfl
    | ⟨1, _⟩ => rfl
    | ⟨2, _⟩ => rfl
  · rw [Shape.rowMajor_val_three, Shape.rowMajor_val_two]
    show (j.val / 8 * 8 + j.val % 8) * 3 + a.val = j.val * 3 + a.val
    omega

/-- The weights [8, P] (the inputs reshaped to [P, 8], transposed) at (corner, point) are the inputs flattened at the point-major
    number. -/
theorem weights_apply (x : (⟨4, ![1, 65536, 32, 8]⟩ : Shape).Idx → α)
    (h₁ : (⟨4, ![1, 65536, 32, 8]⟩ : Shape).ShapeCasts ⟨2, ![2097152, 8]⟩)
    (h₂ : (⟨2, ![2097152, 8]⟩ : Shape).Transposes [1, 0] ⟨2, ![8, 2097152]⟩)
    (h₃ : (⟨4, ![1, 65536, 32, 8]⟩ : Shape).ShapeCasts ⟨1, ![16777216]⟩)
    (j : Fin 16777216) :
    transpose ⟨2, ![8, 2097152]⟩ [1, 0] (shapeCast ⟨2, ![2097152, 8]⟩ x h₁) h₂ (ix2 (cornerOf j) (pointOf j))
      = shapeCast ⟨1, ![16777216]⟩ x h₃ (ix1 j) := by
  refine (transpose_apply [1, 0] _ h₂ (ix2 (cornerOf j) (pointOf j)) (ix2 (pointOf j) (cornerOf j)) (fun b => ?_)).trans
    (shapeCast_eq_shapeCast x h₁ h₃ _ _ ?_)
  · match b with
    | ⟨0, _⟩ => rfl
    | ⟨1, _⟩ => rfl
  · rw [Shape.rowMajor_val_two, Shape.rowMajor_val_one]
    show j.val / 8 * 8 + j.val % 8 = j.val
    omega

/-- The values as a row [1, P] at (0, point) are the values as a column [P, 1], repeated along 8 corners and flattened, at the
    point-major number. -/
theorem values_apply (x : (⟨3, ![1, 65536, 32]⟩ : Shape).Idx → α)
    (h₁ : (⟨3, ![1, 65536, 32]⟩ : Shape).ShapeCasts ⟨1, ![2097152]⟩)
    (h₂ : (⟨1, ![2097152]⟩ : Shape).ShapeCasts ⟨2, ![1, 2097152]⟩)
    (h₃ : (⟨3, ![1, 65536, 32]⟩ : Shape).ShapeCasts ⟨2, ![2097152, 1]⟩)
    (h₄ : (⟨2, ![2097152, 1]⟩ : Shape).BroadcastsInDim ⟨2, ![2097152, 8]⟩ ![0, 1])
    (h₅ : (⟨2, ![2097152, 8]⟩ : Shape).ShapeCasts ⟨1, ![16777216]⟩)
    (j : Fin 16777216) :
    shapeCast ⟨2, ![1, 2097152]⟩ (shapeCast ⟨1, ![2097152]⟩ x h₁) h₂ (ix2 (0 : Fin 1) (pointOf j))
      = shapeCast ⟨1, ![16777216]⟩ (broadcastInDim ⟨2, ![2097152, 8]⟩ ![0, 1] h₄ (shapeCast ⟨2, ![2097152, 1]⟩ x h₃)) h₅ (ix1 j) := by
  -- the right side: position j of the flattened [P, 8] array is (point, corner); the broadcast reads the column at (point, 0)
  have hr : shapeCast ⟨1, ![16777216]⟩ (broadcastInDim ⟨2, ![2097152, 8]⟩ ![0, 1] h₄ (shapeCast ⟨2, ![2097152, 1]⟩ x h₃)) h₅ (ix1 j)
      = shapeCast ⟨2, ![2097152, 1]⟩ x h₃ (ix2 (pointOf j) (0 : Fin 1)) := by
    refine (shapeCast_apply _ h₅ (ix1 j) (ix2 (pointOf j) (cornerOf j)) ?_).trans
      (broadcastInDim_apply ![0, 1] h₄ _ (ix2 (pointOf j) (cornerOf j)) (ix2 (pointOf j) (0 : Fin 1)) (fun a => ?_))
    · rw [Shape.rowMajor_val_two, Shape.rowMajor_val_one]
      show j.val / 8 * 8 + j.val % 8 = j.val
      omega
    · match a with
      | ⟨0, _⟩ => show j.val / 8 = if (2097152 : Nat) = 1 then 0 else j.val / 8; rw [if_neg (by decide)]
      | ⟨1, _⟩ => show 0 = if (1 : Nat) = 1 then 0 else j.val % 8; rw [if_pos rfl]
  rw [hr]
  -- the left side: row [1, P] at (0, point) is the flat values at point; so is the column [P, 1] at (point, 0)
  refine (shapeCast_apply _ h₂ (ix2 (0 : Fin 1) (pointOf j)) (ix1 (pointOf j)) ?_).trans
    (shapeCast_eq_shapeCast x h₁ h₃ (ix1 (pointOf j)) (ix2 (pointOf j) (0 : Fin 1)) ?_)
  · rw [Shape.rowMajor_val_one, Shape.rowMajor_val_two]
    show j.val / 8 = 0 * 2097152 + j.val / 8
    omega
  · rw [Shape.rowMajor_val_one, Shape.rowMajor_val_two]
    show j.val / 8 = j.val / 8 * 1 + 0
    omega

end Cert.Layout
-- ==== Proof.ScatterSum.lean ====
/-
  A scatter-add is a sum, and a sum does not care about the order of its terms.

  For scatter dimension numbers `d`, an update j lands on the operand index `d.resultIdx? j idx` (or nowhere); that index depends on
  the index array only through the words update j reads and on j only through its window coordinates (`resultIdx?_congr`).
  On extended reals the accumulating scatter is, at each operand index i, the operand plus the sum of the updates landing on i,
  so two scatters whose (landing index, update) pairs correspond under a bijection of the update positions agree
  (`hostScatterAdd_reindex`). On 32-bit words the scatter is a left fold of wrapping additions in row-major order, which is the
  same sum in the commutative ring of words (`scatter_addi_apply`). When every update is 0 or 1 and there are fewer than 2³¹ of
  them the word sum cannot wrap, so it is positive as a signed word exactly when some landing update is 1 — which is also when
  the real sum of the same zeros and ones is positive (`touched_eq`).
-/
import Idealize.ShloMosaic.PureOps.Ideal
import Idealize.ShloMosaic.PureOps.ShapeOps
import Idealize.ShloMosaic.PureOps.Dims
import Mathlib.Algebra.BigOperators.Group.Finset.Basic
import Mathlib.Data.BitVec
import Mathlib.Data.EReal.Basic

/-!
# Algebra of a scatter-add

A scatter with an additive body adds, to each operand element, the sum of the updates whose
landing index is that element. The sum does not depend on the order in which the updates are
visited, so two programs that scatter the same multiset of (landing index, update) pairs agree.
-/

namespace Cert.ScatterSum

open Idealize.ShloMosaic

variable {s si u : Shape} (d : ScatterDims s si u) {w : Nat}

/-- The landing index depends on the index array only through the words read at `siIdx`, and on
    the update index only through its window coordinates. -/
theorem resultIdx?_congr {j j' : u.Idx} {idx idx' : IVec si w}
    (hs : ∀ c, idx (d.siIdx j c) = idx' (d.siIdx j' c)) (hw : ∀ a, d.window j a = d.window j' a) :
    d.resultIdx? j idx = d.resultIdx? j' idx' := by
  have hst : ∀ a, d.start j idx a = d.start j' idx' a := by
    intro a
    unfold ScatterDims.start
    split
    · rw [hs]
    · rfl
  unfold ScatterDims.resultIdx?
  simp only [hst, hw]

/-- A finite sum is unchanged by reindexing its terms along a bijection. -/
theorem hostScatterAdd_reindex (σ : u.Idx ≃ u.Idx) (x : s.Idx → EReal) (idx idx' : IVec si w)
    (upd upd' : u.Idx → EReal)
    (hi : ∀ j, d.resultIdx? (σ j) idx = d.resultIdx? j idx') (hu : ∀ j, upd (σ j) = upd' j) :
    Ideal.hostScatterAdd d x idx upd = Ideal.hostScatterAdd d x idx' upd' := by
  funext i
  unfold Ideal.hostScatterAdd
  refine congrArg (x i + ·) ?_
  refine (Finset.sum_equiv σ ?_ ?_).symm
  · intro j
    simp only [Finset.mem_filter, Finset.mem_univ, true_and, hi]
  · intro j _
    exact (hu j).symm

/-- The left fold of wrapping additions over ANY list of row-major positions, read at element
    `i`: the accumulator's element plus the sum, in list order, of the updates that land on `i`. -/
private theorem foldl_addi_apply (idx : IVec si w) (upd : u.Idx → BitVec 32) (i : s.Idx) :
    ∀ (l : List (Fin u.numel)) (r : s.Idx → BitVec 32),
      l.foldl (fun r n =>
        match d.resultIdx? (u.rowMajor.symm n) idx with
        | some i₀ => fun i' => if i' = i₀ then IntOp.addi (r i₀) (upd (u.rowMajor.symm n)) else r i'
        | none => r) r i
      = r i + ((l.filter (fun n => decide (d.resultIdx? (u.rowMajor.symm n) idx = some i))).map
                (fun n => upd (u.rowMajor.symm n))).sum
  | [], r => by simp
  | n :: l, r => by
    rw [List.foldl_cons, foldl_addi_apply idx upd i l]
    cases h : d.resultIdx? (u.rowMajor.symm n) idx with
    | none => simp [h]
    | some i₀ =>
      by_cases hi : i = i₀
      · subst hi
        simp [h, IntOp.addi, add_assoc]
      · have hne : ¬ (i₀ = i) := fun e => hi e.symm
        simp [h, hi, hne]

/-- The row-major left fold of wrapping additions is the operand's element plus the sum over the
    updates that land on it: the positions `0, …, numel - 1` are pairwise distinct and exhaust the
    update indices. -/
theorem scatter_addi_apply (x : s.Idx → BitVec 32) (idx : IVec si w) (upd : u.Idx → BitVec 32) (i : s.Idx) :
    Host.scatter d IntOp.addi x idx upd i
      = x i + ∑ j ∈ Finset.univ.filter (fun j => d.resultIdx? j idx = some i), upd j := by
  unfold Host.scatter
  refine (foldl_addi_apply d idx upd i (List.finRange u.numel) x).trans ?_
  refine congrArg (x i + ·) ?_
  rw [← List.sum_toFinset _ ((List.nodup_finRange _).filter _), List.toFinset_filter, List.toFinset_finRange]
  refine Finset.sum_equiv u.rowMajor.symm ?_ ?_
  · intro n
    simp
  · intro n _
    rfl

/-- The value of a sum of 32-bit words is the sum of their values, reduced modulo `2 ^ 32`. -/
private theorem toNat_sum {ι : Type} (S : Finset ι) (f : ι → BitVec 32) :
    (∑ j ∈ S, f j).toNat = (∑ j ∈ S, (f j).toNat) % 2 ^ 32 := by
  classical
  induction S using Finset.induction_on with
  | empty => simp
  | insert a S ha ih =>
    rw [Finset.sum_insert ha, Finset.sum_insert ha, BitVec.toNat_add, ih, Nat.add_mod_mod]

/-- A one-bit word widened to 32 bits keeps its value … -/
private theorem setWidth_one_toNat (x : BitVec 1) : (x.setWidth 32).toNat = x.toNat :=
  BitVec.toNat_setWidth_of_le (by decide)

/-- … which is also its signed value, the sign bit being clear. -/
private theorem setWidth_one_toInt (x : BitVec 1) : (x.setWidth 32).toInt = (x.toNat : ℤ) := by
  rcases BitVec.eq_zero_or_eq_one x with rfl | rfl <;> rfl

private theorem toNat_le_one (x : BitVec 1) : x.toNat ≤ 1 := by
  have := x.isLt
  omega

/-- A finite sum of natural numbers, each read as an extended real, is the sum read as one. -/
private theorem ereal_sum_natCast {ι : Type} (S : Finset ι) (c : ι → ℕ) :
    ∑ j ∈ S, (((c j : ℝ)) : EReal) = (((∑ j ∈ S, c j : ℕ) : ℝ) : EReal) := by
  classical
  induction S using Finset.induction_on with
  | empty => simp
  | insert a S ha ih =>
    rw [Finset.sum_insert ha, Finset.sum_insert ha, ih, Nat.cast_add, EReal.coe_add]

/-- "Some set bit lands on `i`", tested on a real count of the hits and on a wrapping 32-bit count,
    is the same test: after reindexing both are sums over the same updates of the same bits, each
    `0` or `1`; there are fewer than `2 ^ 31` updates, so the integer count neither wraps nor
    reaches the sign bit, and each count is positive exactly when the natural-number count is. -/
theorem touched_eq (σ : u.Idx ≃ u.Idx) (hN : u.numel < 2 ^ 31) (idx idx' : IVec si w) (b b' : u.Idx → BitVec 1)
    (hi : ∀ j, d.resultIdx? (σ j) idx = d.resultIdx? j idx') (hb : ∀ j, b (σ j) = b' j) (i : s.Idx) :
    Ideal.cmp .ogt (Ideal.hostScatterAdd d (fun _ => (0 : EReal)) idx
        (fun j => ((((b j).setWidth 32).toInt : ℝ) : EReal)) i) 0
      = IntOp.cmpi .sgt (Host.scatter d IntOp.addi (fun _ => 0#32) idx' (fun j => (b' j).setWidth 32) i) 0#32 := by
  rw [hostScatterAdd_reindex d σ (fun _ => (0 : EReal)) idx idx' _
        (fun j => ((((b' j).setWidth 32).toInt : ℝ) : EReal)) hi (fun j => by simp only [hb]),
      scatter_addi_apply]
  unfold Ideal.hostScatterAdd
  simp only [Ideal.cmp, IntOp.cmpi]
  generalize hS : Finset.univ.filter (fun j => d.resultIdx? j idx' = some i) = S
  have hle : ∑ j ∈ S, (b' j).toNat ≤ u.numel :=
    calc ∑ j ∈ S, (b' j).toNat ≤ S.card • 1 := Finset.sum_le_card_nsmul _ _ _ (fun j _ => toNat_le_one (b' j))
      _ = S.card := by simp
      _ ≤ Fintype.card u.Idx := Finset.card_le_univ S
      _ = u.numel := u.card_idx
  have hL : (∑ j ∈ S, ((((b' j).setWidth 32).toInt : ℝ) : EReal))
      = (((∑ j ∈ S, (b' j).toNat : ℕ) : ℝ) : EReal) := by
    rw [← ereal_sum_natCast]
    refine Finset.sum_congr rfl (fun j _ => ?_)
    rw [setWidth_one_toInt, Int.cast_natCast]
  have hR : (∑ j ∈ S, (b' j).setWidth 32).toNat = ∑ j ∈ S, (b' j).toNat := by
    rw [toNat_sum, Finset.sum_congr rfl (fun j _ => setWidth_one_toNat (b' j))]
    exact Nat.mod_eq_of_lt (by omega)
  refine congrArg BitVec.ofBool ?_
  rw [BitVec.slt_eq_decide, BitVec.toInt_zero, zero_add, BitVec.zero_add, hL,
    BitVec.toInt_eq_toNat_of_lt (by rw [hR]; omega), hR]
  refine decide_eq_decide.2 ?_
  rw [EReal.coe_pos, Nat.cast_pos, Int.natCast_pos]

end Cert.ScatterSum
-- ==== Proof.Core.lean ====
/-
  The heart of the equivalence, free of either program's text.

  Given the corner data in the kernel's layout — coordinate planes X [3, 8, P], weights W [8, P], values V [1, P] — and the same
  data in the reference's point-major layout — coordinates c [16777216, 3], weights w and values v [16777216] — related by
  "corner k of point p is corner number 8·p + k", the kernel scatters its per-corner arrays in CORNER-MAJOR order
  (an [8, P] array flattened) and the reference in POINT-MAJOR order, to the same voxel numbers. A scatter-add is a sum over
  the corners that land on a voxel, so reordering the corners changes nothing: the scattered weights and the scattered
  weight·value products agree. The kernel counts hits in floating point (a sum of zeros and ones: positive iff some
  corner inside the volume lands there) and the reference in wrapping 32-bit integers (at most 16777216 ones: no wrap,
  positive iff the same), so the two "touched" tests agree as well.
-/
import proofs.«162537_j82463372083721_1_alg».proof.Proof.Spec
import proofs.«162537_j82463372083721_1_alg».proof.Proof.Layout
import proofs.«162537_j82463372083721_1_alg».proof.Proof.ScatterSum
import Idealize.ShloMosaic.PureOps.Ideal
import Idealize.ShloMosaic.Lib.Pipeline.Value

noncomputable section

namespace Cert.Core

open Idealize.ShloMosaic Idealize.ShloMosaic.ValueIdx Cert.Spec Cert.Layout

/-- The flat corner positions, the index column, the point-major coordinate table. -/
abbrev SN : Shape := ⟨1, ![16777216]⟩
abbrev SN1 : Shape := ⟨2, ![16777216, 1]⟩
abbrev SN3 : Shape := ⟨2, ![16777216, 3]⟩

/-- The scatter's dimension numbers: one index per update, its one component the flat voxel number. -/
def dims : ScatterDims SN SN1 SN where
  updateWindowDims := []
  insertedWindowDims := [0]
  scatterDimsToOperandDims := [0]
  indexVectorDim := 1

/-- Update j reads its start index at row j of the index column. -/
theorem siIdx_eq (j : SN.Idx) (c : Fin dims.scatterDimsToOperandDims.length) : dims.siIdx j c = ix2 (j 0) (0 : Fin 1) := by
  funext b
  match b with
  | ⟨0, _⟩ => exact Fin.ext rfl
  | ⟨1, _⟩ => exact Fin.ext (by have := c.isLt; show c.val = 0; simp only [dims, List.length_singleton] at this; omega)

/-- No window axis: the window coordinate is zero. -/
theorem window_eq (j : SN.Idx) (a : Fin SN.rank) : dims.window j a = 0 := by
  match a with
  | ⟨0, _⟩ => rfl

/-- A flat voxel number as the scatter reads it: a negative number wrapped once by the volume's size. -/
def wrapped (x : BitVec 32) : BitVec 32 := Scalar.select (IntOp.cmpi .slt x 0#32) (IntOp.addi x 16777216#32) x

/-- Flat voxel numbers as the scatter's index column. -/
def idxCol (hb : SN.BroadcastsInDim SN1 ![0]) (f : IVec SN 32) : IVec SN1 32 :=
  broadcastInDim SN1 ![0] hb (select (cmpi .slt f (fun _ => 0#32)) (addi f (fun _ => 16777216#32)) f)

theorem idxCol_apply (hb : SN.BroadcastsInDim SN1 ![0]) (f : IVec SN 32) (n : Fin 16777216) :
    idxCol hb f (ix2 n (0 : Fin 1)) = wrapped (f (ix1 n)) :=
  broadcastInDim_apply ![0] hb _ (ix2 n (0 : Fin 1)) (ix1 n) (fun a => match a with
    | ⟨0, _⟩ => by show n.val = if (16777216 : Nat) = 1 then 0 else n.val; rw [if_neg (by decide)])

/-- Two index columns send update σ j resp. j to the same voxel when their voxel numbers agree there. -/
theorem landing_eq (hb : SN.BroadcastsInDim SN1 ![0]) (f g : IVec SN 32) (n j : Fin 16777216) (h : f (ix1 n) = g (ix1 j)) :
    dims.resultIdx? (ix1 n) (idxCol hb f) = dims.resultIdx? (ix1 j) (idxCol hb g) :=
  Cert.ScatterSum.resultIdx?_congr dims
    (fun c => by rw [siIdx_eq, siIdx_eq]; exact (idxCol_apply hb f n).trans ((congrArg wrapped h).trans (idxCol_apply hb g j).symm))
    (fun a => by rw [window_eq, window_eq])

section
variable (X : IVec SX 32) (W : FVec Ideal SW .f32) (V : FVec Ideal SV .f32)
variable (cR : IVec SN3 32) (wR vR : SN.Idx → EReal)

/-! ### The reference's per-corner arrays, point-major -/

def insideR (j : SN.Idx) : BitVec 1 :=
  inside (cR (ix2 (j 0) (0 : Fin 3))) (cR (ix2 (j 0) (1 : Fin 3))) (cR (ix2 (j 0) (2 : Fin 3)))
def voxelR : IVec SN 32 := fun j =>
  voxel (cR (ix2 (j 0) (0 : Fin 3))) (cR (ix2 (j 0) (1 : Fin 3))) (cR (ix2 (j 0) (2 : Fin 3)))
def keepWR : SN.Idx → EReal := fun j =>
  keepW (F := Ideal) (cR (ix2 (j 0) (0 : Fin 3))) (cR (ix2 (j 0) (1 : Fin 3))) (cR (ix2 (j 0) (2 : Fin 3))) (wR j)
def keepWVR : SN.Idx → EReal := fun j =>
  keepWV (F := Ideal) (cR (ix2 (j 0) (0 : Fin 3))) (cR (ix2 (j 0) (1 : Fin 3))) (cR (ix2 (j 0) (2 : Fin 3))) (wR j) (vR j)

/-- The inside bits in the kernel's [8, P] layout. -/
def insideK : IVec SW 1 := fun y => insideAt X (y 0) (y 1)

variable (hf : SW.ShapeCasts SN) (hb : SN.BroadcastsInDim SN1 ![0])
variable (hX : ∀ (j : Fin 16777216) (a : Fin 3), X (ix3 a (cornerOf j) (pointOf j)) = cR (ix2 j a))
variable (hW : ∀ j : Fin 16777216, W (ix2 (cornerOf j) (pointOf j)) = wR (ix1 j))
variable (hV : ∀ j : Fin 16777216, V (ix2 (0 : Fin 1) (pointOf j)) = vR (ix1 j))

include hX in
theorem voxel_at (j : Fin 16777216) : shapeCast SN (voxels X) hf (ix1 (toCornerMajor j)) = voxelR cR (ix1 j) := by
  rw [flat_apply]
  show voxel _ _ _ = voxel _ _ _
  rw [hX j 0, hX j 1, hX j 2]

include hX in
theorem inside_at (j : Fin 16777216) : shapeCast SN (insideK X) hf (ix1 (toCornerMajor j)) = insideR cR (ix1 j) := by
  rw [flat_apply]
  show inside _ _ _ = inside _ _ _
  rw [hX j 0, hX j 1, hX j 2]

include hX hW in
theorem keptW_at (j : Fin 16777216) : shapeCast SN (keptW X W) hf (ix1 (toCornerMajor j)) = keepWR cR wR (ix1 j) := by
  rw [flat_apply]
  show keepW _ _ _ _ = keepW _ _ _ _
  rw [hX j 0, hX j 1, hX j 2, hW j]

include hX hW hV in
theorem keptWV_at (j : Fin 16777216) : shapeCast SN (keptWV X W V) hf (ix1 (toCornerMajor j)) = keepWVR cR wR vR (ix1 j) := by
  rw [flat_apply]
  show keepWV _ _ _ _ _ = keepWV _ _ _ _ _
  rw [hX j 0, hX j 1, hX j 2, hW j, hV j]

include hX in
/-- Corner-major update σ j and point-major update j land on the same voxel. -/
theorem landing (j : SN.Idx) :
    dims.resultIdx? (cornerMajor j) (idxCol hb (shapeCast SN (voxels X) hf)) = dims.resultIdx? j (idxCol hb (voxelR cR)) := by
  obtain ⟨n, rfl⟩ : ∃ n : Fin 16777216, j = ix1 n := ⟨j 0, eq_ix1 j⟩
  exact landing_eq hb _ _ _ _ (voxel_at X cR hf hX n)

include hX hW in
/-- The scattered weights agree. -/
theorem wsum_eq (x : SN.Idx → EReal) :
    Ideal.hostScatterAdd dims x (idxCol hb (shapeCast SN (voxels X) hf)) (shapeCast SN (keptW X W) hf)
      = Ideal.hostScatterAdd dims x (idxCol hb (voxelR cR)) (keepWR cR wR) :=
  Cert.ScatterSum.hostScatterAdd_reindex dims cornerMajor x _ _ _ _ (landing X cR hf hb hX)
    (fun j => by
      obtain ⟨n, rfl⟩ : ∃ n : Fin 16777216, j = ix1 n := ⟨j 0, eq_ix1 j⟩
      exact keptW_at X W cR wR hf hX hW n)

include hX hW hV in
/-- The scattered weight·value products agree. -/
theorem wvsum_eq (x : SN.Idx → EReal) :
    Ideal.hostScatterAdd dims x (idxCol hb (shapeCast SN (voxels X) hf)) (shapeCast SN (keptWV X W V) hf)
      = Ideal.hostScatterAdd dims x (idxCol hb (voxelR cR)) (keepWVR cR wR vR) :=
  Cert.ScatterSum.hostScatterAdd_reindex dims cornerMajor x _ _ _ _ (landing X cR hf hb hX)
    (fun j => by
      obtain ⟨n, rfl⟩ : ∃ n : Fin 16777216, j = ix1 n := ⟨j 0, eq_ix1 j⟩
      exact keptWV_at X W V cR wR vR hf hX hW hV n)

/-- The kernel's float hits, flattened, are the inside bits read as reals. -/
theorem hits_flat : shapeCast SN (hits (F := Ideal) X) hf
    = fun n => ((((shapeCast SN (insideK X) hf n).setWidth 32).toInt : ℝ) : EReal) := rfl

include hX in
/-- The float count is positive exactly where the integer count is. -/
theorem touched_agree (i : SN.Idx) :
    Ideal.cmp .ogt (Ideal.hostScatterAdd dims (fun _ => (0 : EReal)) (idxCol hb (shapeCast SN (voxels X) hf))
        (shapeCast SN (hits (F := Ideal) X) hf) i) 0
      = IntOp.cmpi .sgt (Host.scatter dims IntOp.addi (fun _ => 0#32) (idxCol hb (voxelR cR))
          (fun j => (insideR cR j).setWidth 32) i) 0#32 := by
  rw [hits_flat]
  exact Cert.ScatterSum.touched_eq dims cornerMajor (by decide) _ _ (shapeCast SN (insideK X) hf) (insideR cR)
    (landing X cR hf hb hX) (fun j => by
      obtain ⟨n, rfl⟩ : ∃ n : Fin 16777216, j = ix1 n := ⟨j 0, eq_ix1 j⟩
      exact inside_at X cR hf hX n) i

end

end Cert.Core

end
-- ==== Proof.Bridge.lean ====
/-
  The reference's two results are the kernel's.

  The reference flattens the corners point-major: corner number j = 8·p + k. Its coordinate table is the coordinate input
  reshaped to [16777216, 3]; from each column it takes the inside test and the clamped coordinate, and from those the inside
  bit, the voxel number, the kept weight and the kept weight·value product of corner j — the same scalar functions the
  kernel applies at (k, p). The three layout facts (a coordinate, a weight, a value read in either layout) then put the core's
  reordering argument to work: the scattered weights, the scattered products and the "touched" test agree voxel by voxel,
  and what remains is the same arithmetic on both sides (the host's division is the kernel's on extended reals).
-/
import proofs.«162537_j82463372083721_1_alg».proof.Proof.RefRead
import proofs.«162537_j82463372083721_1_alg».proof.Proof.KernelValue
import proofs.«162537_j82463372083721_1_alg».proof.Proof.Core
import Idealize.ShloMosaic.PureOps.Ideal.Laws

set_option maxRecDepth 16384

noncomputable section

namespace Cert.Bridge

open Idealize.ShloMosaic Idealize.ShloMosaic.ValueIdx Idealize.ShloMosaic.TcCoe
open Cert.Spec Cert.Layout Cert.Core
open Cert.ReferenceIdeal Cert.ReferenceIdeal.Gen Cert.ReferenceIdeal.ReadP

/-- Column a of a [16777216, 3] table, sliced out and flattened, read at corner j. -/
theorem column_apply (y : IVec S16777216x3 32) (a : Fin 3) (off : Fin 2 → Nat) (h0 : off 0 = 0) (h1 : off 1 = a.val)
    (hs : S16777216x3.Slices off S16777216x1) (hc : S16777216x1.ShapeCasts S16777216) (j : S16777216.Idx) :
    shapeCast S16777216 (extractStridedSlice S16777216x1 off y hs) hc j = y (ix2 (j 0) a) := by
  refine (shapeCast_apply _ hc j (ix2 (j 0) (0 : Fin 1)) ?_).trans
    (extractStridedSlice_apply off y hs _ (ix2 (j 0) a) (fun b => ?_))
  · rw [Shape.rowMajor_val_two, Shape.rowMajor_val_one]
    show (j 0).val * 1 + 0 = (j 0).val
    omega
  · match b with
    | ⟨0, _⟩ => show (j 0).val = off 0 + (j 0).val; rw [h0]; omega
    | ⟨1, _⟩ => show a.val = off 1 + 0; rw [h1, Nat.add_zero]

section
variable (a0 : (⟨S1x65536x32, .f32⟩ : BufTy).Contents (Elt Ideal)) (a1 : (⟨S1x65536x32x8x3, .i32⟩ : BufTy).Contents (Elt Ideal))
  (a2 : (⟨S1x65536x32x8, .f32⟩ : BufTy).Contents (Elt Ideal)) (a3 a4 : (⟨S256x256x256, .f32⟩ : BufTy).Contents (Elt Ideal))

/-! ## The reference's per-corner arrays are the core's -/

/-- The inside bit of corner j. -/
theorem inside_read (j : S16777216.Idx) : val_main_v33 (F := Ideal) a1 j = insideR (val_main_v0 (F := Ideal) a1) j := by
  have e0 : val_main_v6 (F := Ideal) a1 j = val_main_v0 (F := Ideal) a1 (ix2 (j 0) (0 : Fin 3)) := column_apply _ 0 _ rfl rfl _ _ j
  have e0' : val_main_v10 (F := Ideal) a1 j = val_main_v0 (F := Ideal) a1 (ix2 (j 0) (0 : Fin 3)) := column_apply _ 0 _ rfl rfl _ _ j
  have e1 : val_main_v15 (F := Ideal) a1 j = val_main_v0 (F := Ideal) a1 (ix2 (j 0) (1 : Fin 3)) := column_apply _ 1 _ rfl rfl _ _ j
  have e1' : val_main_v20 (F := Ideal) a1 j = val_main_v0 (F := Ideal) a1 (ix2 (j 0) (1 : Fin 3)) := column_apply _ 1 _ rfl rfl _ _ j
  have e2 : val_main_v25 (F := Ideal) a1 j = val_main_v0 (F := Ideal) a1 (ix2 (j 0) (2 : Fin 3)) := column_apply _ 2 _ rfl rfl _ _ j
  have e2' : val_main_v30 (F := Ideal) a1 j = val_main_v0 (F := Ideal) a1 (ix2 (j 0) (2 : Fin 3)) := column_apply _ 2 _ rfl rfl _ _ j
  show IntOp.andi (IntOp.andi (IntOp.andi (IntOp.andi (IntOp.andi
      (IntOp.cmpi .sge (val_main_v6 (F := Ideal) a1 j) 0#32) (IntOp.cmpi .slt (val_main_v10 (F := Ideal) a1 j) 256#32))
      (IntOp.cmpi .sge (val_main_v15 (F := Ideal) a1 j) 0#32)) (IntOp.cmpi .slt (val_main_v20 (F := Ideal) a1 j) 256#32))
      (IntOp.cmpi .sge (val_main_v25 (F := Ideal) a1 j) 0#32)) (IntOp.cmpi .slt (val_main_v30 (F := Ideal) a1 j) 256#32) = _
  rw [e0, e0', e1, e1', e2, e2']
  rfl

/-- The voxel number of corner j. -/
theorem voxel_read (j : S16777216.Idx) : val_main_v46 (F := Ideal) a1 j = voxelR (val_main_v0 (F := Ideal) a1) j := by
  have e0 : val_main_v36 (F := Ideal) a1 j = val_main_v34 (F := Ideal) a1 (ix2 (j 0) (0 : Fin 3)) := column_apply _ 0 _ rfl rfl _ _ j
  have e1 : val_main_v40 (F := Ideal) a1 j = val_main_v34 (F := Ideal) a1 (ix2 (j 0) (1 : Fin 3)) := column_apply _ 1 _ rfl rfl _ _ j
  have e2 : val_main_v45 (F := Ideal) a1 j = val_main_v34 (F := Ideal) a1 (ix2 (j 0) (2 : Fin 3)) := column_apply _ 2 _ rfl rfl _ _ j
  show IntOp.addi (IntOp.addi (IntOp.muli 65536#32 (val_main_v36 (F := Ideal) a1 j)) (IntOp.muli 256#32 (val_main_v40 (F := Ideal) a1 j)))
      (val_main_v45 (F := Ideal) a1 j) = _
  rw [e0, e1, e2]
  rfl

theorem voxel_fun : val_main_v46 (F := Ideal) a1 = voxelR (val_main_v0 (F := Ideal) a1) := funext (voxel_read a1)

/-- The kept weight of corner j. -/
theorem keptW_fun : val_main_v47 (F := Ideal) a1 a2 = keepWR (val_main_v0 (F := Ideal) a1) (val_main_v1 (F := Ideal) a2) := by
  funext j
  show Scalar.select (val_main_v33 (F := Ideal) a1 j) (val_main_v1 (F := Ideal) a2 j) (FloatOps.ofBits (F := Ideal) .f32 0x00000000#32) = _
  rw [inside_read]
  rfl

/-- The kept weight·value product of corner j. -/
theorem keptWV_fun : val_main_v49 (F := Ideal) a0 a1 a2
    = keepWVR (val_main_v0 (F := Ideal) a1) (val_main_v1 (F := Ideal) a2) (val_main_v4 (F := Ideal) a0) := by
  funext j
  show Scalar.select (val_main_v33 (F := Ideal) a1 j)
      (FloatOps.mulf (F := Ideal) (val_main_v1 (F := Ideal) a2 j) (val_main_v4 (F := Ideal) a0 j)) (FloatOps.ofBits (F := Ideal) .f32 0x00000000#32) = _
  rw [inside_read]
  rfl

/-- The inside bit of corner j widened to a word. -/
theorem hit_fun : val_main_v68 (F := Ideal) a1 = fun j => (insideR (val_main_v0 (F := Ideal) a1) j).setWidth 32 := by
  funext j
  show (val_main_v33 (F := Ideal) a1 j).setWidth 32 = _
  rw [inside_read]

/-! ## The layout facts, at this program's arrays -/

open Cert.KernelIdeal.Result in
theorem planes_fact (j : Fin 16777216) (a : Fin 3) :
    planes (F := Ideal) a1 (ix3 a (cornerOf j) (pointOf j)) = val_main_v0 (F := Ideal) a1 (ix2 j a) :=
  planes_apply a1 _ _ _ j a

open Cert.KernelIdeal.Result in
theorem weights_fact (j : Fin 16777216) :
    weightRows (F := Ideal) a2 (ix2 (cornerOf j) (pointOf j)) = val_main_v1 (F := Ideal) a2 (ix1 j) :=
  weights_apply a2 _ _ _ j

open Cert.KernelIdeal.Result in
theorem values_fact (j : Fin 16777216) :
    valueRow (F := Ideal) a0 (ix2 (0 : Fin 1) (pointOf j)) = val_main_v4 (F := Ideal) a0 (ix1 j) :=
  values_apply a0 _ _ _ _ _ j

end

/-! ## The scattered volumes and the touched test -/

section
variable (a0 : (⟨S1x65536x32, .f32⟩ : BufTy).Contents (Elt Ideal)) (a1 : (⟨S1x65536x32x8x3, .i32⟩ : BufTy).Contents (Elt Ideal))
  (a2 : (⟨S1x65536x32x8, .f32⟩ : BufTy).Contents (Elt Ideal)) (a3 a4 : (⟨S256x256x256, .f32⟩ : BufTy).Contents (Elt Ideal))

open Cert.KernelIdeal.Result Cert.KernelIdeal.HostValue

/-- The kernel's flattening of an [8, P] array and the index column's broadcast, as the core names them. -/
abbrev hflat : SW.ShapeCasts SN := Cert.KernelIdeal.Gen.shapeCasts_S8x2097152_S16777216
abbrev hcol : SN.BroadcastsInDim SN1 ![0] := bcast_S16777216_S16777216x1_0

/-- A scatter volume is the flat scatter-add, as the core spells it, reshaped. -/
theorem scatterVol_eq (f : IVec SW 32) (u : FVec Ideal SW .f32) :
    scatterVol (F := Ideal) f u
      = shapeCast S256x256x256 (Ideal.hostScatterAdd dims (fun _ => Ideal.ofBits .f32 0x00000000#32)
          (Core.idxCol hcol (shapeCast SN f hflat)) (shapeCast SN u hflat)) shapeCasts_S16777216_S256x256x256 := rfl

/-- Touched: the count is above zero. -/
theorem touched_def (c : EReal) : touched (F := Ideal) c = Ideal.cmp .ogt c 0 := by
  show Ideal.cmp .ogt c (Ideal.ofBits .f32 0x00000000#32) = _
  rw [Ideal.ofBits_zero_f32]

/-- The scattered weights, flat: the reference's point-major scatter is the kernel's corner-major one. -/
theorem wsum_flat : val_main_v57 (F := Ideal) a1 a2
    = Ideal.hostScatterAdd dims (fun _ => Ideal.ofBits .f32 0x00000000#32)
        (Core.idxCol hcol (shapeCast SN (voxels (planes (F := Ideal) a1)) hflat))
        (shapeCast SN (keptW (F := Ideal) (planes (F := Ideal) a1) (weightRows a2)) hflat) := by
  have e : val_main_v57 (F := Ideal) a1 a2
      = Ideal.hostScatterAdd dims (fun _ => Ideal.ofBits .f32 0x00000000#32) (Core.idxCol hcol (val_main_v46 (F := Ideal) a1))
          (val_main_v47 (F := Ideal) a1 a2) := rfl
  rw [e, voxel_fun, keptW_fun]
  exact (wsum_eq (planes (F := Ideal) a1) (weightRows a2) (val_main_v0 (F := Ideal) a1) (val_main_v1 (F := Ideal) a2) hflat hcol
    (planes_fact a1) (weights_fact a2) _).symm

/-- The scattered weight·value products, flat. -/
theorem wvsum_flat : val_main_v65 (F := Ideal) a0 a1 a2
    = Ideal.hostScatterAdd dims (fun _ => Ideal.ofBits .f32 0x00000000#32)
        (Core.idxCol hcol (shapeCast SN (voxels (planes (F := Ideal) a1)) hflat))
        (shapeCast SN (keptWV (F := Ideal) (planes (F := Ideal) a1) (weightRows a2) (valueRow a0)) hflat) := by
  have e : val_main_v65 (F := Ideal) a0 a1 a2
      = Ideal.hostScatterAdd dims (fun _ => Ideal.ofBits .f32 0x00000000#32) (Core.idxCol hcol (val_main_v46 (F := Ideal) a1))
          (val_main_v49 (F := Ideal) a0 a1 a2) := rfl
  rw [e, voxel_fun, keptWV_fun]
  exact (wvsum_eq (planes (F := Ideal) a1) (weightRows a2) (valueRow a0) (val_main_v0 (F := Ideal) a1) (val_main_v1 (F := Ideal) a2)
    (val_main_v4 (F := Ideal) a0) hflat hcol (planes_fact a1) (weights_fact a2) (values_fact a0) _).symm

/-- The scattered weights as a volume. -/
theorem wsum_vol : val_main_v58 (F := Ideal) a1 a2
    = scatterVol (F := Ideal) (voxels (planes (F := Ideal) a1)) (keptW (F := Ideal) (planes (F := Ideal) a1) (weightRows a2)) :=
  congrArg (fun y => shapeCast S256x256x256 y shapeCasts_S16777216_S256x256x256) (wsum_flat a1 a2)

/-- The scattered products as a volume. -/
theorem wvsum_vol : val_main_v66 (F := Ideal) a0 a1 a2
    = scatterVol (F := Ideal) (voxels (planes (F := Ideal) a1))
        (keptWV (F := Ideal) (planes (F := Ideal) a1) (weightRows a2) (valueRow a0)) :=
  congrArg (fun y => shapeCast S256x256x256 y shapeCasts_S16777216_S256x256x256) (wvsum_flat a0 a1 a2)

/-- A voxel is touched for the reference (a positive integer count) exactly when it is for the kernel (a positive float count). -/
theorem touched_read (i : S256x256x256.Idx) : val_main_v78 (F := Ideal) a1 i
    = touched (F := Ideal) (scatterVol (F := Ideal) (voxels (planes (F := Ideal) a1)) (hits (F := Ideal) (planes (F := Ideal) a1)) i) := by
  have eR : val_main_v78 (F := Ideal) a1 i
      = IntOp.cmpi .sgt (Host.scatter dims IntOp.addi (fun _ => 0#32) (Core.idxCol hcol (val_main_v46 (F := Ideal) a1))
          (val_main_v68 (F := Ideal) a1) (Shape.reshapeEquiv shapeCasts_S16777216_S256x256x256 i)) 0#32 := rfl
  have key := touched_agree (planes (F := Ideal) a1) (val_main_v0 (F := Ideal) a1) hflat hcol (planes_fact a1)
    (Shape.reshapeEquiv shapeCasts_S16777216_S256x256x256 i)
  rw [eR, voxel_fun, hit_fun, ← key, touched_def, scatterVol_eq, Ideal.ofBits_zero_f32]
  rfl

/-! ## The two results -/

/-- The reference's new values are the kernel's. -/
theorem values_eq : val_main_v83 (F := Ideal) a0 a1 a2 a3 a4 = newValuesOf (F := Ideal) a0 a1 a2 a3 a4 := by
  funext i
  rw [val_main_v83_apply, val_main_v82_apply, val_main_v81_apply, val_main_v80_apply, val_main_v79_apply,
    touched_read, wsum_vol, wvsum_vol]
  rfl

/-- The reference's new weights are the kernel's. -/
theorem weights_eq : val_main_v84 (F := Ideal) a1 a2 a4 = newWeightsOf (F := Ideal) a1 a2 a4 := by
  funext i
  rw [val_main_v84_apply, val_main_v79_apply, touched_read, wsum_vol]
  rfl

end

end Cert.Bridge

end
-- ==== Proof.RefStages.lean ====
/-
  The reference's run, read off its operations stage by stage.

  The reference's @main is a straight line of 115 host operations; its buffers after the run are the fold of the operations'
  results over the launch contents. The two results depend on the arguments through a long chain whose intermediate
  arrays are each read several times, so the fold is taken in seven consecutive stretches, and between two stretches only
  the few arrays a later stretch still reads are carried, each by the NAME of its stage (the function of the arguments it
  holds) rather than by its expanded expression:
    A  the coordinate table, the flat weights and values, the clamp's bound, and the inside bits;
    B  the voxel numbers;  C  the kept weights and the kept weight·value products;
    D  the zero volume and the scattered weights;  E  the scattered products;  F  the touched test;
    G  the two results.
-/
import proofs.«162537_j82463372083721_1_alg».proof.Proof.RefRun
import proofs.«162537_j82463372083721_1_alg».proof.Proof.RefRead

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The buffers after two lists of operations run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## The seven stretches -/

/-- Stretch A: operations 1 to 41 of the 115. -/
abbrev opsA : List (HloOp τ sig (Elt F)) :=
  [ nullary main_c (constantI S3 32 255#32),
    reshape main_arg1 main_v0 rfl shapeCasts_S1x65536x32x8x3_S16777216x3,
    reshape main_arg2 main_v1 rfl shapeCasts_S1x65536x32x8_S16777216,
    reshape main_arg0 main_v2 rfl shapeCasts_S1x65536x32_S2097152x1,
    unary main_v2 main_v3 (broadcastInDim S2097152x8 ![0, 1] bcast_S2097152x1_S2097152x8_0_1 : (⟨S2097152x1, .f32⟩ : BufTy).Contents (Elt F) → (⟨S2097152x8, .f32⟩ : BufTy).Contents (Elt F)),
    reshape main_v3 main_v4 rfl shapeCasts_S2097152x8_S16777216,
    unary main_v0 main_v5 ((extractStridedSlice S16777216x1 ![0, 0] · slices_S16777216x3_S16777216x1_0_0) : (⟨S16777216x3, .i32⟩ : BufTy).Contents (Elt F) → (⟨S16777216x1, .i32⟩ : BufTy).Contents (Elt F)),
    reshape main_v5 main_v6 rfl shapeCasts_S16777216x1_S16777216,
    nullary main_c_0 (constantI S_ 32 0#32),
    unary main_c_0 main_v7 (broadcastInDim S16777216 ![] bcast_S_S16777216 : (⟨S_, .i32⟩ : BufTy).Contents (Elt F) → (⟨S16777216, .i32⟩ : BufTy).Contents (Elt F)),
    binary main_v6 main_v7 main_v8 (cmpi .sge : (⟨S16777216, .i32⟩ : BufTy).Contents (Elt F) → (⟨S16777216, .i32⟩ : BufTy).Contents (Elt F) → (⟨S16777216, .i1⟩ : BufTy).Contents (Elt F)),
    unary main_v0 main_v9 ((extractStridedSlice S16777216x1 ![0, 0] · slices_S16777216x3_S16777216x1_0_0) : (⟨S16777216x3, .i32⟩ : BufTy).Contents (Elt F) → (⟨S16777216x1, .i32⟩ : BufTy).Contents (Elt F)),
    reshape main_v9 main_v10 rfl shapeCasts_S16777216x1_S16777216,
    nullary main_c_1 (constantI S_ 32 256#32),
    unary main_c_1 main_v11 (broadcastInDim S16777216 ![] bcast_S_S16777216 : (⟨S_, .i32⟩ : BufTy).Contents (Elt F) → (⟨S16777216, .i32⟩ : BufTy).Contents (Elt F)),
    binary main_v10 main_v11 main_v12 (cmpi .slt : (⟨S16777216, .i32⟩ : BufTy).Contents (Elt F) → (⟨S16777216, .i32⟩ : BufTy).Contents (Elt F) → (⟨S16777216, .i1⟩ : BufTy).Contents (Elt F)),
    binary main_v8 main_v12 main_v13 (andi : (⟨S16777216, .i1⟩ : BufTy).Contents (Elt F) → (⟨S16777216, .i1⟩ : BufTy).Contents (Elt F) → (⟨S16777216, .i1⟩ : BufTy).Contents (Elt F)),
    unary main_v0 main_v14 ((extractStridedSlice S16777216x1 ![0, 1] · slices_S16777216x3_S16777216x1_0_1) : (⟨S16777216x3, .i32⟩ : BufTy).Contents (Elt F) → (⟨S16777216x1, .i32⟩ : BufTy).Contents (Elt F)),
    reshape main_v14 main_v15 rfl shapeCasts_S16777216x1_S16777216,
    nullary main_c_2 (constantI S_ 32 0#32),
    unary main_c_2 main_v16 (broadcastInDim S16777216 ![] bcast_S_S16777216 : (⟨S_, .i32⟩ : BufTy).Contents (Elt F) → (⟨S16777216, .i32⟩ : BufTy).Contents (Elt F)),
    binary main_v15 main_v16 main_v17 (cmpi .sge : (⟨S16777216, .i32⟩ : BufTy).Contents (Elt F) → (⟨S16777216, .i32⟩ : BufTy).Contents (Elt F) → (⟨S16777216, .i1⟩ : BufTy).Contents (Elt F)),
    binary main_v13 main_v17 main_v18 (andi : (⟨S16777216, .i1⟩ : BufTy).Contents (Elt F) → (⟨S16777216, .i1⟩ : BufTy).Contents (Elt F) → (⟨S16777216, .i1⟩ : BufTy).Contents (Elt F)),
    unary main_v0 main_v19 ((extractStridedSlice S16777216x1 ![0, 1] · slices_S16777216x3_S16777216x1_0_1) : (⟨S16777216x3, .i32⟩ : BufTy).Contents (Elt F) → (⟨S16777216x1, .i32⟩ : BufTy).Contents (Elt F)),
    reshape main_v19 main_v20 rfl shapeCasts_S16777216x1_S16777216,
    nullary main_c_3 (constantI S_ 32 256#32),
    unary main_c_3 main_v21 (broadcastInDim S16777216 ![] bcast_S_S16777216 : (⟨S_, .i32⟩ : BufTy).Contents (Elt F) → (⟨S16777216, .i32⟩ : BufTy).Contents (Elt F)),
    binary main_v20 main_v21 main_v22 (cmpi .slt : (⟨S16777216, .i32⟩ : BufTy).Contents (Elt F) → (⟨S16777216, .i32⟩ : BufTy).Contents (Elt F) → (⟨S16777216, .i1⟩ : BufTy).Contents (Elt F)),
    binary main_v18 main_v22 main_v23 (andi : (⟨S16777216, .i1⟩ : BufTy).Contents (Elt F) → (⟨S16777216, .i1⟩ : BufTy).Contents (Elt F) → (⟨S16777216, .i1⟩ : BufTy).Contents (Elt F)),
    unary main_v0 main_v24 ((extractStridedSlice S16777216x1 ![0, 2] · slices_S16777216x3_S16777216x1_0_2) : (⟨S16777216x3, .i32⟩ : BufTy).Contents (Elt F) → (⟨S16777216x1, .i32⟩ : BufTy).Contents (Elt F)),
    reshape main_v24 main_v25 rfl shapeCasts_S16777216x1_S16777216,
    nullary main_c_4 (constantI S_ 32 0#32),
    unary main_c_4 main_v26 (broadcastInDim S16777216 ![] bcast_S_S16777216 : (⟨S_, .i32⟩ : BufTy).Contents (Elt F) → (⟨S16777216, .i32⟩ : BufTy).Contents (Elt F)),
    binary main_v25 main_v26 main_v27 (cmpi .sge : (⟨S16777216, .i32⟩ : BufTy).Contents (Elt F) → (⟨S16777216, .i32⟩ : BufTy).Contents (Elt F) → (⟨S16777216, .i1⟩ : BufTy).Contents (Elt F)),
    binary main_v23 main_v27 main_v28 (andi : (⟨S16777216, .i1⟩ : BufTy).Contents (Elt F) → (⟨S16777216, .i1⟩ : BufTy).Contents (Elt F) → (⟨S16777216, .i1⟩ : BufTy).Contents (Elt F)),
    unary main_v0 main_v29 ((extractStridedSlice S16777216x1 ![0, 2] · slices_S16777216x3_S16777216x1_0_2) : (⟨S16777216x3, .i32⟩ : BufTy).Contents (Elt F) → (⟨S16777216x1, .i32⟩ : BufTy).Contents (Elt F)),
    reshape main_v29 main_v30 rfl shapeCasts_S16777216x1_S16777216,
    nullary main_c_5 (constantI S_ 32 256#32),
    unary main_c_5 main_v31 (broadcastInDim S16777216 ![] bcast_S_S16777216 : (⟨S_, .i32⟩ : BufTy).Contents (Elt F) → (⟨S16777216, .i32⟩ : BufTy).Contents (Elt F)),
    binary main_v30 main_v31 main_v32 (cmpi .slt : (⟨S16777216, .i32⟩ : BufTy).Contents (Elt F) → (⟨S16777216, .i32⟩ : BufTy).Contents (Elt F) → (⟨S16777216, .i1⟩ : BufTy).Contents (Elt F)),
    binary main_v28 main_v32 main_v33 (andi : (⟨S16777216, .i1⟩ : BufTy).Contents (Elt F) → (⟨S16777216, .i1⟩ : BufTy).Contents (Elt F) → (⟨S16777216, .i1⟩ : BufTy).Contents (Elt F)) ]

/-- Stretch B: operations 42 to 62 of the 115. -/
abbrev opsB : List (HloOp τ sig (Elt F)) :=
  [ nullary main_c_6 (constantI S_ 32 0#32),
    TRef.unary (TRef.of (T := ⟨S_, .i32⟩) main_c_6) (TRef.of (T := ⟨S_, .i32⟩) main_call0_v0) id,
    TRef.unary (TRef.of (T := ⟨S_, .i32⟩) main_call0_v0) (TRef.of (T := ⟨S16777216x3, .i32⟩) main_call0_v1) (broadcastInDim S16777216x3 ![] bcast_S_S16777216x3),
    TRef.binary (TRef.of (T := ⟨S16777216x3, .i32⟩) main_call0_v1) (TRef.of (T := ⟨S16777216x3, .i32⟩) main_v0) (TRef.of (T := ⟨S16777216x3, .i32⟩) main_call0_v2) maxsi,
    TRef.unary (TRef.of (T := ⟨S3, .i32⟩) main_c) (TRef.of (T := ⟨S1x3, .i32⟩) main_call0_v3) (broadcastInDim S1x3 ![1] bcast_S3_S1x3_1),
    TRef.unary (TRef.of (T := ⟨S1x3, .i32⟩) main_call0_v3) (TRef.of (T := ⟨S16777216x3, .i32⟩) main_call0_v4) (broadcastInDim S16777216x3 ![0, 1] bcast_S1x3_S16777216x3_0_1),
    TRef.binary (TRef.of (T := ⟨S16777216x3, .i32⟩) main_call0_v4) (TRef.of (T := ⟨S16777216x3, .i32⟩) main_call0_v2) (TRef.of (T := ⟨S16777216x3, .i32⟩) main_v34) minsi,
    unary main_v34 main_v35 ((extractStridedSlice S16777216x1 ![0, 0] · slices_S16777216x3_S16777216x1_0_0) : (⟨S16777216x3, .i32⟩ : BufTy).Contents (Elt F) → (⟨S16777216x1, .i32⟩ : BufTy).Contents (Elt F)),
    reshape main_v35 main_v36 rfl shapeCasts_S16777216x1_S16777216,
    nullary main_c_7 (constantI S_ 32 65536#32),
    unary main_c_7 main_v37 (broadcastInDim S16777216 ![] bcast_S_S16777216 : (⟨S_, .i32⟩ : BufTy).Contents (Elt F) → (⟨S16777216, .i32⟩ : BufTy).Contents (Elt F)),
    binary main_v37 main_v36 main_v38 (muli : (⟨S16777216, .i32⟩ : BufTy).Contents (Elt F) → (⟨S16777216, .i32⟩ : BufTy).Contents (Elt F) → (⟨S16777216, .i32⟩ : BufTy).Contents (Elt F)),
    unary main_v34 main_v39 ((extractStridedSlice S16777216x1 ![0, 1] · slices_S16777216x3_S16777216x1_0_1) : (⟨S16777216x3, .i32⟩ : BufTy).Contents (Elt F) → (⟨S16777216x1, .i32⟩ : BufTy).Contents (Elt F)),
    reshape main_v39 main_v40 rfl shapeCasts_S16777216x1_S16777216,
    nullary main_c_8 (constantI S_ 32 256#32),
    unary main_c_8 main_v41 (broadcastInDim S16777216 ![] bcast_S_S16777216 : (⟨S_, .i32⟩ : BufTy).Contents (Elt F) → (⟨S16777216, .i32⟩ : BufTy).Contents (Elt F)),
    binary main_v41 main_v40 main_v42 (muli : (⟨S16777216, .i32⟩ : BufTy).Contents (Elt F) → (⟨S16777216, .i32⟩ : BufTy).Contents (Elt F) → (⟨S16777216, .i32⟩ : BufTy).Contents (Elt F)),
    binary main_v38 main_v42 main_v43 (addi : (⟨S16777216, .i32⟩ : BufTy).Contents (Elt F) → (⟨S16777216, .i32⟩ : BufTy).Contents (Elt F) → (⟨S16777216, .i32⟩ : BufTy).Contents (Elt F)),
    unary main_v34 main_v44 ((extractStridedSlice S16777216x1 ![0, 2] · slices_S16777216x3_S16777216x1_0_2) : (⟨S16777216x3, .i32⟩ : BufTy).Contents (Elt F) → (⟨S16777216x1, .i32⟩ : BufTy).Contents (Elt F)),
    reshape main_v44 main_v45 rfl shapeCasts_S16777216x1_S16777216,
    binary main_v43 main_v45 main_v46 (addi : (⟨S16777216, .i32⟩ : BufTy).Contents (Elt F) → (⟨S16777216, .i32⟩ : BufTy).Contents (Elt F) → (⟨S16777216, .i32⟩ : BufTy).Contents (Elt F)) ]

/-- Stretch C: operations 63 to 71 of the 115. -/
abbrev opsC : List (HloOp τ sig (Elt F)) :=
  [ nullary main_cst (constant S_ .f32 0x00000000#32),
    TRef.unary (TRef.of (T := ⟨S_, .f32⟩) main_cst) (TRef.of (T := ⟨S_, .f32⟩) main_call1_v0) id,
    TRef.unary (TRef.of (T := ⟨S_, .f32⟩) main_call1_v0) (TRef.of (T := ⟨S16777216, .f32⟩) main_call1_v1) (broadcastInDim S16777216 ![] bcast_S_S16777216),
    TRef.ternary (TRef.of (T := ⟨S16777216, .i1⟩) main_v33) (TRef.of (T := ⟨S16777216, .f32⟩) main_v1) (TRef.of (T := ⟨S16777216, .f32⟩) main_call1_v1) (TRef.of (T := ⟨S16777216, .f32⟩) main_v47) select,
    binary main_v1 main_v4 main_v48 (mulf : (⟨S16777216, .f32⟩ : BufTy).Contents (Elt F) → (⟨S16777216, .f32⟩ : BufTy).Contents (Elt F) → (⟨S16777216, .f32⟩ : BufTy).Contents (Elt F)),
    nullary main_cst_9 (constant S_ .f32 0x00000000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S16777216, .f32⟩) main_call2_v1) (broadcastInDim S16777216 ![] bcast_S_S16777216),
    TRef.ternary (TRef.of (T := ⟨S16777216, .i1⟩) main_v33) (TRef.of (T := ⟨S16777216, .f32⟩) main_v48) (TRef.of (T := ⟨S16777216, .f32⟩) main_call2_v1) (TRef.of (T := ⟨S16777216, .f32⟩) main_v49) select ]

/-- Stretch D: operations 72 to 83 of the 115. -/
abbrev opsD : List (HloOp τ sig (Elt F)) :=
  [ nullary main_cst_10 (constant S_ .f32 0x00000000#32),
    unary main_cst_10 main_v50 (broadcastInDim S16777216 ![] bcast_S_S16777216 : (⟨S_, .f32⟩ : BufTy).Contents (Elt F) → (⟨S16777216, .f32⟩ : BufTy).Contents (Elt F)),
    nullary main_c_11 (constantI S_ 32 0#32),
    unary main_c_11 main_v51 (broadcastInDim S16777216 ![] bcast_S_S16777216 : (⟨S_, .i32⟩ : BufTy).Contents (Elt F) → (⟨S16777216, .i32⟩ : BufTy).Contents (Elt F)),
    binary main_v46 main_v51 main_v52 (cmpi .slt : (⟨S16777216, .i32⟩ : BufTy).Contents (Elt F) → (⟨S16777216, .i32⟩ : BufTy).Contents (Elt F) → (⟨S16777216, .i1⟩ : BufTy).Contents (Elt F)),
    nullary main_c_12 (constantI S_ 32 16777216#32),
    unary main_c_12 main_v53 (broadcastInDim S16777216 ![] bcast_S_S16777216 : (⟨S_, .i32⟩ : BufTy).Contents (Elt F) → (⟨S16777216, .i32⟩ : BufTy).Contents (Elt F)),
    binary main_v46 main_v53 main_v54 (addi : (⟨S16777216, .i32⟩ : BufTy).Contents (Elt F) → (⟨S16777216, .i32⟩ : BufTy).Contents (Elt F) → (⟨S16777216, .i32⟩ : BufTy).Contents (Elt F)),
    ternary main_v52 main_v54 main_v46 main_v55 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v55 main_v56 (broadcastInDim S16777216x1 ![0] bcast_S16777216_S16777216x1_0 : (⟨S16777216, .i32⟩ : BufTy).Contents (Elt F) → (⟨S16777216x1, .i32⟩ : BufTy).Contents (Elt F)),
    ternary main_v50 main_v56 main_v47 main_v57 ((fun x i u => Host.scatterAdd scatter_S16777216_S16777216x1_S16777216_n_0_0_1 x i u) : (⟨S16777216, .f32⟩ : BufTy).Contents (Elt F) → (⟨S16777216x1, .i32⟩ : BufTy).Contents (Elt F) → (⟨S16777216, .f32⟩ : BufTy).Contents (Elt F) → (⟨S16777216, .f32⟩ : BufTy).Contents (Elt F)),
    reshape main_v57 main_v58 rfl shapeCasts_S16777216_S256x256x256 ]

/-- Stretch E: operations 84 to 93 of the 115. -/
abbrev opsE : List (HloOp τ sig (Elt F)) :=
  [ nullary main_c_13 (constantI S_ 32 0#32),
    unary main_c_13 main_v59 (broadcastInDim S16777216 ![] bcast_S_S16777216 : (⟨S_, .i32⟩ : BufTy).Contents (Elt F) → (⟨S16777216, .i32⟩ : BufTy).Contents (Elt F)),
    binary main_v46 main_v59 main_v60 (cmpi .slt : (⟨S16777216, .i32⟩ : BufTy).Contents (Elt F) → (⟨S16777216, .i32⟩ : BufTy).Contents (Elt F) → (⟨S16777216, .i1⟩ : BufTy).Contents (Elt F)),
    nullary main_c_14 (constantI S_ 32 16777216#32),
    unary main_c_14 main_v61 (broadcastInDim S16777216 ![] bcast_S_S16777216 : (⟨S_, .i32⟩ : BufTy).Contents (Elt F) → (⟨S16777216, .i32⟩ : BufTy).Contents (Elt F)),
    binary main_v46 main_v61 main_v62 (addi : (⟨S16777216, .i32⟩ : BufTy).Contents (Elt F) → (⟨S16777216, .i32⟩ : BufTy).Contents (Elt F) → (⟨S16777216, .i32⟩ : BufTy).Contents (Elt F)),
    ternary main_v60 main_v62 main_v46 main_v63 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v63 main_v64 (broadcastInDim S16777216x1 ![0] bcast_S16777216_S16777216x1_0 : (⟨S16777216, .i32⟩ : BufTy).Contents (Elt F) → (⟨S16777216x1, .i32⟩ : BufTy).Contents (Elt F)),
    ternary main_v50 main_v64 main_v49 main_v65 ((fun x i u => Host.scatterAdd scatter_S16777216_S16777216x1_S16777216_n_0_0_1 x i u) : (⟨S16777216, .f32⟩ : BufTy).Contents (Elt F) → (⟨S16777216x1, .i32⟩ : BufTy).Contents (Elt F) → (⟨S16777216, .f32⟩ : BufTy).Contents (Elt F) → (⟨S16777216, .f32⟩ : BufTy).Contents (Elt F)),
    reshape main_v65 main_v66 rfl shapeCasts_S16777216_S256x256x256 ]

/-- Stretch F: operations 94 to 109 of the 115. -/
abbrev opsF : List (HloOp τ sig (Elt F)) :=
  [ nullary main_c_15 (constantI S_ 32 0#32),
    unary main_c_15 main_v67 (broadcastInDim S16777216 ![] bcast_S_S16777216 : (⟨S_, .i32⟩ : BufTy).Contents (Elt F) → (⟨S16777216, .i32⟩ : BufTy).Contents (Elt F)),
    unary main_v33 main_v68 ((extui 32 · natLt_1_32) : (⟨S16777216, .i1⟩ : BufTy).Contents (Elt F) → (⟨S16777216, .i32⟩ : BufTy).Contents (Elt F)),
    nullary main_c_16 (constantI S_ 32 0#32),
    unary main_c_16 main_v69 (broadcastInDim S16777216 ![] bcast_S_S16777216 : (⟨S_, .i32⟩ : BufTy).Contents (Elt F) → (⟨S16777216, .i32⟩ : BufTy).Contents (Elt F)),
    binary main_v46 main_v69 main_v70 (cmpi .slt : (⟨S16777216, .i32⟩ : BufTy).Contents (Elt F) → (⟨S16777216, .i32⟩ : BufTy).Contents (Elt F) → (⟨S16777216, .i1⟩ : BufTy).Contents (Elt F)),
    nullary main_c_17 (constantI S_ 32 16777216#32),
    unary main_c_17 main_v71 (broadcastInDim S16777216 ![] bcast_S_S16777216 : (⟨S_, .i32⟩ : BufTy).Contents (Elt F) → (⟨S16777216, .i32⟩ : BufTy).Contents (Elt F)),
    binary main_v46 main_v71 main_v72 (addi : (⟨S16777216, .i32⟩ : BufTy).Contents (Elt F) → (⟨S16777216, .i32⟩ : BufTy).Contents (Elt F) → (⟨S16777216, .i32⟩ : BufTy).Contents (Elt F)),
    ternary main_v70 main_v72 main_v46 main_v73 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    unary main_v73 main_v74 (broadcastInDim S16777216x1 ![0] bcast_S16777216_S16777216x1_0 : (⟨S16777216, .i32⟩ : BufTy).Contents (Elt F) → (⟨S16777216x1, .i32⟩ : BufTy).Contents (Elt F)),
    ternary main_v67 main_v74 main_v68 main_v75 ((fun x i u => Host.scatter scatter_S16777216_S16777216x1_S16777216_n_0_0_1 IntOp.addi x i u) : (⟨S16777216, .i32⟩ : BufTy).Contents (Elt F) → (⟨S16777216x1, .i32⟩ : BufTy).Contents (Elt F) → (⟨S16777216, .i32⟩ : BufTy).Contents (Elt F) → (⟨S16777216, .i32⟩ : BufTy).Contents (Elt F)),
    reshape main_v75 main_v76 rfl shapeCasts_S16777216_S256x256x256,
    nullary main_c_18 (constantI S_ 32 0#32),
    unary main_c_18 main_v77 (broadcastInDim S256x256x256 ![] bcast_S_S256x256x256 : (⟨S_, .i32⟩ : BufTy).Contents (Elt F) → (⟨S256x256x256, .i32⟩ : BufTy).Contents (Elt F)),
    binary main_v76 main_v77 main_v78 (cmpi .sgt : (⟨S256x256x256, .i32⟩ : BufTy).Contents (Elt F) → (⟨S256x256x256, .i32⟩ : BufTy).Contents (Elt F) → (⟨S256x256x256, .i1⟩ : BufTy).Contents (Elt F)) ]

/-- Stretch G: operations 110 to 115 of the 115. -/
abbrev opsG : List (HloOp τ sig (Elt F)) :=
  [ binary main_arg4 main_v58 main_v79 (addf : (⟨S256x256x256, .f32⟩ : BufTy).Contents (Elt F) → (⟨S256x256x256, .f32⟩ : BufTy).Contents (Elt F) → (⟨S256x256x256, .f32⟩ : BufTy).Contents (Elt F)),
    binary main_arg4 main_arg3 main_v80 (mulf : (⟨S256x256x256, .f32⟩ : BufTy).Contents (Elt F) → (⟨S256x256x256, .f32⟩ : BufTy).Contents (Elt F) → (⟨S256x256x256, .f32⟩ : BufTy).Contents (Elt F)),
    binary main_v80 main_v66 main_v81 (addf : (⟨S256x256x256, .f32⟩ : BufTy).Contents (Elt F) → (⟨S256x256x256, .f32⟩ : BufTy).Contents (Elt F) → (⟨S256x256x256, .f32⟩ : BufTy).Contents (Elt F)),
    binary main_v81 main_v79 main_v82 (Host.divf : (⟨S256x256x256, .f32⟩ : BufTy).Contents (Elt F) → (⟨S256x256x256, .f32⟩ : BufTy).Contents (Elt F) → (⟨S256x256x256, .f32⟩ : BufTy).Contents (Elt F)),
    TRef.ternary (TRef.of (T := ⟨S256x256x256, .i1⟩) main_v78) (TRef.of (T := ⟨S256x256x256, .f32⟩) main_v82) (TRef.of (T := ⟨S256x256x256, .f32⟩) main_arg3) (TRef.of (T := ⟨S256x256x256, .f32⟩) main_v83) select,
    TRef.ternary (TRef.of (T := ⟨S256x256x256, .i1⟩) main_v78) (TRef.of (T := ⟨S256x256x256, .f32⟩) main_v79) (TRef.of (T := ⟨S256x256x256, .f32⟩) main_arg4) (TRef.of (T := ⟨S256x256x256, .f32⟩) main_v84) select ]

set_option maxRecDepth 8192 in
theorem ops_split : (ops : List (HloOp τ sig (Elt F))) = opsA ++ (opsB ++ (opsC ++ (opsD ++ (opsE ++ (opsF ++ opsG))))) := rfl

/-! ## What a stretch does not touch -/

theorem keepB_main_v1 (W : Valuation τ sig (Elt F)) : after opsB W (Proc.devRef .tc main_v1) = W (Proc.devRef .tc main_v1) := by
  after_results_simp
theorem keepB_main_v4 (W : Valuation τ sig (Elt F)) : after opsB W (Proc.devRef .tc main_v4) = W (Proc.devRef .tc main_v4) := by
  after_results_simp
theorem keepB_main_v33 (W : Valuation τ sig (Elt F)) : after opsB W (Proc.devRef .tc main_v33) = W (Proc.devRef .tc main_v33) := by
  after_results_simp
theorem keepB_main_arg3 (W : Valuation τ sig (Elt F)) : after opsB W (Proc.devRef .tc main_arg3) = W (Proc.devRef .tc main_arg3) := by
  after_results_simp
theorem keepB_main_arg4 (W : Valuation τ sig (Elt F)) : after opsB W (Proc.devRef .tc main_arg4) = W (Proc.devRef .tc main_arg4) := by
  after_results_simp
theorem keepC_main_v33 (W : Valuation τ sig (Elt F)) : after opsC W (Proc.devRef .tc main_v33) = W (Proc.devRef .tc main_v33) := by
  after_results_simp
theorem keepC_main_v46 (W : Valuation τ sig (Elt F)) : after opsC W (Proc.devRef .tc main_v46) = W (Proc.devRef .tc main_v46) := by
  after_results_simp
theorem keepC_main_arg3 (W : Valuation τ sig (Elt F)) : after opsC W (Proc.devRef .tc main_arg3) = W (Proc.devRef .tc main_arg3) := by
  after_results_simp
theorem keepC_main_arg4 (W : Valuation τ sig (Elt F)) : after opsC W (Proc.devRef .tc main_arg4) = W (Proc.devRef .tc main_arg4) := by
  after_results_simp
theorem keepD_main_v33 (W : Valuation τ sig (Elt F)) : after opsD W (Proc.devRef .tc main_v33) = W (Proc.devRef .tc main_v33) := by
  after_results_simp
theorem keepD_main_v46 (W : Valuation τ sig (Elt F)) : after opsD W (Proc.devRef .tc main_v46) = W (Proc.devRef .tc main_v46) := by
  after_results_simp
theorem keepD_main_v49 (W : Valuation τ sig (Elt F)) : after opsD W (Proc.devRef .tc main_v49) = W (Proc.devRef .tc main_v49) := by
  after_results_simp
theorem keepD_main_arg3 (W : Valuation τ sig (Elt F)) : after opsD W (Proc.devRef .tc main_arg3) = W (Proc.devRef .tc main_arg3) := by
  after_results_simp
theorem keepD_main_arg4 (W : Valuation τ sig (Elt F)) : after opsD W (Proc.devRef .tc main_arg4) = W (Proc.devRef .tc main_arg4) := by
  after_results_simp
theorem keepE_main_v33 (W : Valuation τ sig (Elt F)) : after opsE W (Proc.devRef .tc main_v33) = W (Proc.devRef .tc main_v33) := by
  after_results_simp
theorem keepE_main_v46 (W : Valuation τ sig (Elt F)) : after opsE W (Proc.devRef .tc main_v46) = W (Proc.devRef .tc main_v46) := by
  after_results_simp
theorem keepE_main_v58 (W : Valuation τ sig (Elt F)) : after opsE W (Proc.devRef .tc main_v58) = W (Proc.devRef .tc main_v58) := by
  after_results_simp
theorem keepE_main_arg3 (W : Valuation τ sig (Elt F)) : after opsE W (Proc.devRef .tc main_arg3) = W (Proc.devRef .tc main_arg3) := by
  after_results_simp
theorem keepE_main_arg4 (W : Valuation τ sig (Elt F)) : after opsE W (Proc.devRef .tc main_arg4) = W (Proc.devRef .tc main_arg4) := by
  after_results_simp
theorem keepF_main_v58 (W : Valuation τ sig (Elt F)) : after opsF W (Proc.devRef .tc main_v58) = W (Proc.devRef .tc main_v58) := by
  after_results_simp
theorem keepF_main_v66 (W : Valuation τ sig (Elt F)) : after opsF W (Proc.devRef .tc main_v66) = W (Proc.devRef .tc main_v66) := by
  after_results_simp
theorem keepF_main_arg3 (W : Valuation τ sig (Elt F)) : after opsF W (Proc.devRef .tc main_arg3) = W (Proc.devRef .tc main_arg3) := by
  after_results_simp
theorem keepF_main_arg4 (W : Valuation τ sig (Elt F)) : after opsF W (Proc.devRef .tc main_arg4) = W (Proc.devRef .tc main_arg4) := by
  after_results_simp

/-! ## What each stretch leaves, given what it finds -/

section
variable (a0 : (⟨S1x65536x32, .f32⟩ : BufTy).Contents (Elt F)) (a1 : (⟨S1x65536x32x8x3, .i32⟩ : BufTy).Contents (Elt F)) (a2 : (⟨S1x65536x32x8, .f32⟩ : BufTy).Contents (Elt F)) (a3 a4 : (⟨S256x256x256, .f32⟩ : BufTy).Contents (Elt F))

/-! ### A, from the launch contents -/

theorem A_bound (V : Valuation τ sig (Elt F)) : after opsA V (Proc.devRef .tc main_c) = val_main_c (F := F) := by
  after_results_simp
  rfl
theorem A_table (V : Valuation τ sig (Elt F)) (h1 : V (Proc.devRef .tc main_arg1) = a1) :
    after opsA V (Proc.devRef .tc main_v0) = val_main_v0 (F := F) a1 := by
  after_results_simp
  rw [h1]
  rfl
theorem A_weights (V : Valuation τ sig (Elt F)) (h2 : V (Proc.devRef .tc main_arg2) = a2) :
    after opsA V (Proc.devRef .tc main_v1) = val_main_v1 (F := F) a2 := by
  after_results_simp
  rw [h2]
  rfl
theorem A_values (V : Valuation τ sig (Elt F)) (h0 : V (Proc.devRef .tc main_arg0) = a0) :
    after opsA V (Proc.devRef .tc main_v4) = val_main_v4 (F := F) a0 := by
  after_results_simp
  rw [h0]
  rfl
theorem A_inside (V : Valuation τ sig (Elt F)) (h1 : V (Proc.devRef .tc main_arg1) = a1) :
    after opsA V (Proc.devRef .tc main_v33) = val_main_v33 (F := F) a1 := by
  after_results_simp
  rw [h1]
  rfl
theorem keepA_main_arg3 (W : Valuation τ sig (Elt F)) : after opsA W (Proc.devRef .tc main_arg3) = W (Proc.devRef .tc main_arg3) := by
  after_results_simp
theorem keepA_main_arg4 (W : Valuation τ sig (Elt F)) : after opsA W (Proc.devRef .tc main_arg4) = W (Proc.devRef .tc main_arg4) := by
  after_results_simp

/-! ### B: the voxel numbers -/

theorem B_voxels (W : Valuation τ sig (Elt F)) (h0 : W (Proc.devRef .tc main_v0) = val_main_v0 (F := F) a1)
    (hc : W (Proc.devRef .tc main_c) = val_main_c (F := F)) : after opsB W (Proc.devRef .tc main_v46) = val_main_v46 (F := F) a1 := by
  after_results_simp
  rw [h0, hc]
  rfl

/-! ### C: the kept weights and products -/

theorem C_keptW (W : Valuation τ sig (Elt F)) (h33 : W (Proc.devRef .tc main_v33) = val_main_v33 (F := F) a1)
    (h1 : W (Proc.devRef .tc main_v1) = val_main_v1 (F := F) a2) : after opsC W (Proc.devRef .tc main_v47) = val_main_v47 (F := F) a1 a2 := by
  after_results_simp
  rw [h33, h1]
  rfl
theorem C_keptWV (W : Valuation τ sig (Elt F)) (h33 : W (Proc.devRef .tc main_v33) = val_main_v33 (F := F) a1)
    (h1 : W (Proc.devRef .tc main_v1) = val_main_v1 (F := F) a2) (h4 : W (Proc.devRef .tc main_v4) = val_main_v4 (F := F) a0) :
    after opsC W (Proc.devRef .tc main_v49) = val_main_v49 (F := F) a0 a1 a2 := by
  after_results_simp
  rw [h33, h1, h4]
  rfl

/-! ### D: the zero volume and the scattered weights -/

theorem D_zero (W : Valuation τ sig (Elt F)) : after opsD W (Proc.devRef .tc main_v50) = val_main_v50 (F := F) := by
  after_results_simp
  rfl
theorem D_wsum (W : Valuation τ sig (Elt F)) (h46 : W (Proc.devRef .tc main_v46) = val_main_v46 (F := F) a1)
    (h47 : W (Proc.devRef .tc main_v47) = val_main_v47 (F := F) a1 a2) : after opsD W (Proc.devRef .tc main_v58) = val_main_v58 (F := F) a1 a2 := by
  after_results_simp
  rw [h46, h47]
  rfl

/-! ### E: the scattered products -/

theorem E_wvsum (W : Valuation τ sig (Elt F)) (h46 : W (Proc.devRef .tc main_v46) = val_main_v46 (F := F) a1)
    (h50 : W (Proc.devRef .tc main_v50) = val_main_v50 (F := F)) (h49 : W (Proc.devRef .tc main_v49) = val_main_v49 (F := F) a0 a1 a2) :
    after opsE W (Proc.devRef .tc main_v66) = val_main_v66 (F := F) a0 a1 a2 := by
  after_results_simp
  rw [h46, h50, h49]
  rfl

/-! ### F: the touched test -/

theorem F_touched (W : Valuation τ sig (Elt F)) (h33 : W (Proc.devRef .tc main_v33) = val_main_v33 (F := F) a1)
    (h46 : W (Proc.devRef .tc main_v46) = val_main_v46 (F := F) a1) : after opsF W (Proc.devRef .tc main_v78) = val_main_v78 (F := F) a1 := by
  after_results_simp
  rw [h33, h46]
  rfl

/-! ### G: the two results

The last stretch reads the touched bits and the two scattered volumes through the typed references of the two `where` calls.
It is read first over ARBITRARY arrays in their places, so that reading through the references opens nothing, and then
instantiated at the stages, whose five definitions of this stretch unfold to the same expression. -/

theorem G_values_of (W : Valuation τ sig (Elt F)) (x3 x4 w58 w66 : (⟨S256x256x256, .f32⟩ : BufTy).Contents (Elt F)) (c78 : (⟨S256x256x256, .i1⟩ : BufTy).Contents (Elt F))
    (h3 : W (Proc.devRef .tc main_arg3) = x3) (h4 : W (Proc.devRef .tc main_arg4) = x4) (h58 : W (Proc.devRef .tc main_v58) = w58)
    (h66 : W (Proc.devRef .tc main_v66) = w66) (h78 : W (Proc.devRef .tc main_v78) = c78) :
    after opsG W (Proc.devRef .tc main_v83) = select c78 (Host.divf (addf (mulf x4 x3) w66) (addf x4 w58)) x3 := by
  after_results_simp
  rw [h3, h4, h58, h66, h78]
  rfl

theorem G_weights_of (W : Valuation τ sig (Elt F)) (x4 w58 : (⟨S256x256x256, .f32⟩ : BufTy).Contents (Elt F)) (c78 : (⟨S256x256x256, .i1⟩ : BufTy).Contents (Elt F))
    (h4 : W (Proc.devRef .tc main_arg4) = x4) (h58 : W (Proc.devRef .tc main_v58) = w58) (h78 : W (Proc.devRef .tc main_v78) = c78) :
    after opsG W (Proc.devRef .tc main_v84) = select c78 (addf x4 w58) x4 := by
  after_results_simp
  rw [h4, h58, h78]
  rfl

theorem G_values (W : Valuation τ sig (Elt F)) (h3 : W (Proc.devRef .tc main_arg3) = a3) (h4 : W (Proc.devRef .tc main_arg4) = a4)
    (h58 : W (Proc.devRef .tc main_v58) = val_main_v58 (F := F) a1 a2) (h66 : W (Proc.devRef .tc main_v66) = val_main_v66 (F := F) a0 a1 a2)
    (h78 : W (Proc.devRef .tc main_v78) = val_main_v78 (F := F) a1) :
    after opsG W (Proc.devRef .tc main_v83) = val_main_v83 (F := F) a0 a1 a2 a3 a4 :=
  (G_values_of W a3 a4 _ _ _ h3 h4 h58 h66 h78).trans (by
    unfold val_main_v83 val_main_v82 val_main_v81 val_main_v80 val_main_v79
    rfl)

theorem G_weights (W : Valuation τ sig (Elt F)) (h4 : W (Proc.devRef .tc main_arg4) = a4)
    (h58 : W (Proc.devRef .tc main_v58) = val_main_v58 (F := F) a1 a2) (h78 : W (Proc.devRef .tc main_v78) = val_main_v78 (F := F) a1) :
    after opsG W (Proc.devRef .tc main_v84) = val_main_v84 (F := F) a1 a2 a4 :=
  (G_weights_of W a4 _ _ h4 h58 h78).trans (by
    unfold val_main_v84 val_main_v79
    rfl)

end

/-! ## The whole line -/

/-- After all 115 operations, from any contents `V`, the two result buffers hold the last two stages of `V`'s arguments. -/
theorem after_ops (V : Valuation τ sig (Elt F)) :
    after ops V (Proc.devRef .tc main_v83)
        = val_main_v83 (F := F) (V (Proc.devRef .tc main_arg0)) (V (Proc.devRef .tc main_arg1)) (V (Proc.devRef .tc main_arg2)) (V (Proc.devRef .tc main_arg3)) (V (Proc.devRef .tc main_arg4))
      ∧ after ops V (Proc.devRef .tc main_v84)
        = val_main_v84 (F := F) (V (Proc.devRef .tc main_arg1)) (V (Proc.devRef .tc main_arg2)) (V (Proc.devRef .tc main_arg4)) := by
  -- A
  have t0 := A_table (F := F) (V (Proc.devRef .tc main_arg1)) V rfl
  have tc := A_bound (F := F) V
  have t1 := A_weights (F := F) (V (Proc.devRef .tc main_arg2)) V rfl
  have t4 := A_values (F := F) (V (Proc.devRef .tc main_arg0)) V rfl
  have t33 := A_inside (F := F) (V (Proc.devRef .tc main_arg1)) V rfl
  have p3 := keepA_main_arg3 (F := F) V
  have p4 := keepA_main_arg4 (F := F) V
  -- B
  have u46 := B_voxels (F := F) _ _ t0 tc
  have u1 := (keepB_main_v1 (F := F) _).trans t1
  have u4 := (keepB_main_v4 (F := F) _).trans t4
  have u33 := (keepB_main_v33 (F := F) _).trans t33
  have q3 := (keepB_main_arg3 (F := F) _).trans p3
  have q4 := (keepB_main_arg4 (F := F) _).trans p4
  -- C
  have v47 := C_keptW (F := F) _ _ _ u33 u1
  have v49 := C_keptWV (F := F) _ _ _ _ u33 u1 u4
  have v33 := (keepC_main_v33 (F := F) _).trans u33
  have v46 := (keepC_main_v46 (F := F) _).trans u46
  have r3 := (keepC_main_arg3 (F := F) _).trans q3
  have r4 := (keepC_main_arg4 (F := F) _).trans q4
  -- D
  have w50 := D_zero (F := F) (after opsC (after opsB (after opsA V)))
  have w58 := D_wsum (F := F) _ _ _ v46 v47
  have w33 := (keepD_main_v33 (F := F) _).trans v33
  have w46 := (keepD_main_v46 (F := F) _).trans v46
  have w49 := (keepD_main_v49 (F := F) _).trans v49
  have s3 := (keepD_main_arg3 (F := F) _).trans r3
  have s4 := (keepD_main_arg4 (F := F) _).trans r4
  -- E
  have y66 := E_wvsum (F := F) _ _ _ _ w46 w50 w49
  have y33 := (keepE_main_v33 (F := F) _).trans w33
  have y46 := (keepE_main_v46 (F := F) _).trans w46
  have y58 := (keepE_main_v58 (F := F) _).trans w58
  have e3 := (keepE_main_arg3 (F := F) _).trans s3
  have e4 := (keepE_main_arg4 (F := F) _).trans s4
  -- F
  have z78 := F_touched (F := F) _ _ y33 y46
  have z58 := (keepF_main_v58 (F := F) _).trans y58
  have z66 := (keepF_main_v66 (F := F) _).trans y66
  have f3 := (keepF_main_arg3 (F := F) _).trans e3
  have f4 := (keepF_main_arg4 (F := F) _).trans e4
  -- G
  rw [ops_split]
  simp only [after_append]
  exact ⟨G_values (F := F) _ _ _ _ _ _ f3 f4 z58 z66 z78, G_weights (F := F) _ _ _ _ f4 z58 z78⟩

set_option maxRecDepth 8192 in
set_option maxHeartbeats 4000000 in
/-- On every device, for any float values, from any memory with zero counters: every weakly fair execution of the reference's
    @main terminates with the two results at the last two stages of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83)
          = val_main_v83 (F := F) (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_v84)
          = val_main_v84 (F := F) (m ((c.tc : Thread nD τ).loc main_arg1)) (m ((c.tc : Thread nD τ).loc main_arg2))
              (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v83).trans (after_ops (launchContents m c)).1,
      (h c main_v84).trans (after_ops (launchContents m c)).2,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.Stages

end
-- ==== Proof.lean ====
/-
  Scatter-weighted volume update: a Pallas kernel against its jnp reference, equal over the extended reals.

  Inputs: per point p (of 2097152) a value v, and per corner k (of 8) of each point an integer voxel coordinate (x, y, z)
  and a weight w; two volumes of 256³ voxels, the old values vv and the old weights wv.
  A corner is inside when 0 ≤ x, y, z < 256; it lands on voxel 65536·cx + 256·cy + cz (coordinates clamped to [0, 255]) and
  adds there w, w·v and one hit, each only when inside. With wc, vc, cnt the three sums at a voxel, the results are
      new value  = (wv·vv + vc) / (wv + wc)  where cnt > 0,  vv elsewhere;
      new weight =  wv + wc                  where cnt > 0,  wv elsewhere.

  The kernel computes the per-corner quantities in a first gridded pass over [8, P] arrays (corner-major), lets the host
  scatter-add them, and combines in a second gridded pass; it counts hits in floating point. The reference works on flat
  point-major arrays and counts hits in 32-bit integers. The proof: each pass's output arrays are whole-array functions of
  its inputs (PrepValue, CombineValue over the generated frame); the host operations between are read as functions
  (KernelHost); the kernel's run ends with both results at those functions of the arguments (KernelRun, KernelValue);
  a scatter-add is a sum over the corners landing on a voxel, so the order of the corners does not matter, and a sum
  of at most 16777216 zeros and ones is positive as a float exactly when it is as a non-wrapping 32-bit integer
  (ScatterSum, Layout, Core); the reference's run ends at its last two stages (RefStages), and its stages, read corner by corner,
  are the same scalar functions (Bridge).
  Nothing here uses that the float inputs are finite: only commutativity and associativity of the sum are used.
-/
import proofs.«162537_j82463372083721_1_alg».proof.Defs
import proofs.«162537_j82463372083721_1_alg».proof.Proof.Gen.Kernel
import proofs.«162537_j82463372083721_1_alg».proof.Proof.Gen.Kernel.Frame
import proofs.«162537_j82463372083721_1_alg».proof.Proof.Gen.KernelIdeal
import proofs.«162537_j82463372083721_1_alg».proof.Proof.Gen.KernelIdeal.Frame
import proofs.«162537_j82463372083721_1_alg».proof.Proof.Gen.ReferenceIdeal
import proofs.«162537_j82463372083721_1_alg».proof.Proof.Gen.Pre_finite_inputs
import proofs.«162537_j82463372083721_1_alg».proof.Proof.Bridge
import proofs.«162537_j82463372083721_1_alg».proof.Proof.RefStages
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Stages.run (F := Ideal) m ρ)

/-- Both idealized programs end with the new values and the new weights of the arguments. -/
theorem algebraic : Cert.algebraic_KernelIdeal_ReferenceIdeal := by
  intro m ρ m' ρ' _ hagree
  refine ⟨_, _, Cert.KernelIdeal.Result.run (F := Ideal) m ρ, ?_⟩
  refine (θ_run Cert.ReferenceIdeal.defs _ _).mono (fun _ h c => ⟨(h c).1.trans ?_, (h c).2.1.trans ?_, (h c).2.2⟩)
    (Cert.ReferenceIdeal.Stages.run (F := Ideal) m' ρ')
  · rw [(hagree c).1, (hagree c).2.1, (hagree c).2.2.1, (hagree c).2.2.2.1, (hagree c).2.2.2.2]
    exact Cert.Bridge.values_eq _ _ _ _ _
  · rw [(hagree c).2.1, (hagree c).2.2.1, (hagree c).2.2.2.2]
    exact Cert.Bridge.weights_eq _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
